-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x256 : Shape := ⟨3, ![4096, 2, 256]⟩
abbrev S4096 : Shape := ⟨1, ![4096]⟩
abbrev S_ : Shape := ⟨0, ![]⟩

class Facts : Prop where
  bcast_S_S4096x2x256 : S_.BroadcastsInDim S4096x2x256 (![] : Fin 0 → Fin S4096x2x256.rank)
  reducesTo_S4096x2x256_S_d0_1_2 : S4096x2x256.ReducesTo [0, 1, 2] S_
  h_S_ : 0 < S_.numel

variable [Facts]

def fn {F : FTy → Type} [FloatOps F] (main_arg0 : FVec F S4096x2x256 .f32) (main_arg1 : IVec S4096 32) : IVec S_ 1 :=
  let main_v0 : FVec F S4096x2x256 .f32 := Host.absf main_arg0
  let main_cst : FVec F S_ .f32 := constant S_ .f32 0x7F800000#32
  let main_v1 : FVec F S4096x2x256 .f32 := broadcastInDim S4096x2x256 ![] bcast_S_S4096x2x256 main_cst
  let main_v2 : IVec S4096x2x256 1 := cmpf .olt main_v0 main_v1
  let main_c : IVec S_ 1 := constantI S_ 1 1#1
  let main_v3 : IVec S_ 1 := (fun x v => Host.reduce IntOp.andi x v reducesTo_S4096x2x256_S_d0_1_2 h_S_) main_v2 main_c
  main_v3
-- ==== Kernel.lean ====
abbrev S4096x2x256 : Shape := ⟨3, ![4096, 2, 256]⟩
abbrev S4096 : Shape := ⟨1, ![4096]⟩
abbrev S2x4096x256 : Shape := ⟨3, ![2, 4096, 256]⟩
abbrev S8192x256 : Shape := ⟨2, ![8192, 256]⟩
abbrev S1x4096 : Shape := ⟨2, ![1, 4096]⟩
abbrev S2x4096 : Shape := ⟨2, ![2, 4096]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

abbrev nBuf : Space → Nat
  | .hbm => 22
  | .vmem => 14
  | .smem => 0
  | _ => 0

abbrev bufTy : (tb : Table) → Fin (tcTables nBuf tb) → BufTy
  | .hbm, ⟨0, _⟩ => ⟨S4096x2x256, .f32⟩
  | .hbm, ⟨1, _⟩ => ⟨S4096, .i32⟩
  | .hbm, ⟨2, _⟩ => ⟨S2x4096x256, .f32⟩
  | .hbm, ⟨3, _⟩ => ⟨S8192x256, .f32⟩
  | .hbm, ⟨4, _⟩ => ⟨S1x4096, .i32⟩
  | .hbm, ⟨5, _⟩ => ⟨S2x4096, .i32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S4096x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4096x2x256_S2x4096x256_1_0_2 : S4096x2x256.Transposes [1, 0, 2] S2x4096x256
  shapeCasts_S2x4096x256_S8192x256 : S2x4096x256.ShapeCasts S8192x256
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2x256 : Shape := ⟨3, ![4096, 2, 256]⟩
abbrev S4096 : Shape := ⟨1, ![4096]⟩
abbrev S2x4096x256 : Shape := ⟨3, ![2, 4096, 256]⟩
abbrev S8192x256 : Shape := ⟨2, ![8192, 256]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x1x4096 : Shape := ⟨4, ![1, 4096, 1, 4096]⟩
abbrev S2x4096x2x4096 : Shape := ⟨4, ![2, 4096, 2, 4096]⟩
abbrev S8192x8192 : Shape := ⟨2, ![8192, 8192]⟩
abbrev S256x8192 : Shape := ⟨2, ![256, 8192]⟩
abbrev S8192 : Shape := ⟨1, ![8192]⟩

abbrev nBuf : Space → Nat
  | .hbm => 51
  | .vmem => 0
  | .smem => 0
  | _ => 0

abbrev bufTy : (tb : Table) → Fin (tcTables nBuf tb) → BufTy
  | .hbm, ⟨0, _⟩ => ⟨S4096x2x256, .f32⟩
  | .hbm, ⟨1, _⟩ => ⟨S4096, .i32⟩
  | .hbm, ⟨2, _⟩ => ⟨S2x4096x256, .f32⟩
  | .hbm, ⟨3, _⟩ => ⟨S8192x256, .f32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S1x4096x1x4096, .f32⟩
  | .hbm, ⟨14, _⟩ => ⟨S2x4096x2x4096, .f32⟩
  | .hbm, ⟨15, _⟩ => ⟨S8192x8192, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S256x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4096x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]

class Facts₀ : Prop where
  transposes_S4096x2x256_S2x4096x256_1_0_2 : S4096x2x256.Transposes [1, 0, 2] S2x4096x256
  shapeCasts_S2x4096x256_S8192x256 : S2x4096x256.ShapeCasts S8192x256
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192x8192 : S_.BroadcastsInDim S8192x8192 (![] : Fin 0 → Fin S8192x8192.rank)
  transposes_S8192x256_S256x8192_1_0 : S8192x256.Transposes [1, 0] S256x8192
  reducesTo_S8192x8192_S8192_d1 : S8192x8192.ReducesTo [1] S8192
  h_S_ : 0 < S_.numel
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Base.lean ====
/-
  The pipelined loss kernel, read at any float instance: what both of its frames and its value rest on.

  The region runs on a grid of 8 × 8 points (bi, bj), bj fastest. At a point the body sees block bi of the
  8192 × 256 feature matrix (window 0: the anchor rows), block bj of the SAME matrix (window 1: the contrast
  rows), the anchor rows' labels (window 2) and the contrast rows' labels (window 3). Two scratch columns of
  1024 entries are carried along a row of points: zeroed at bj = 0, then at every point the row sums of the
  masked similarities are added (all pairs off the diagonal into the first; pairs of equal label off the
  diagonal into the second), and at bj = 7 both are copied to the two result windows, which are written back
  there and nowhere else.

  This module names, for any instance F: the arrays as the region finds them (after the seven host lines in
  front of it), each window's block at a point, the two branch conditions in closed form, where the result
  windows are idle, the two accumulators point by point as terms over the body's payloads, and the pipeline's
  proof data stated over them.
-/
import proofs.«110631_j3728031613431_1_alg».proof.Proof.Gen.Kernel.Launch
import proofs.«110631_j3728031613431_1_alg».proof.Proof.Gen.Kernel.Skeleton
import proofs.«110631_j3728031613431_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffers when the region is entered: the seven host lines in front of it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at their literal types: anchor rows, contrast rows, anchor labels, contrast labels. -/
abbrev ablk (c : Dev nD) (t : Fin cfg0.N) : Vec F S1024x256 .f32 := iblk m c 0 t
abbrev cblk (c : Dev nD) (t : Fin cfg0.N) : Vec F S1024x256 .f32 := iblk m c 1 t
abbrev rlab (c : Dev nD) (t : Fin cfg0.N) : Vec F S1024x1 .i32 := iblk m c 2 t
abbrev clab (c : Dev nD) (t : Fin cfg0.N) : Vec F S1x1024 .i32 := iblk m c 3 t

/-! ## The two branch conditions -/

/-- The first branch (zero the accumulators) is taken where the column coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (copy the accumulators out) is taken where the column coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column a result window is idle and is not written back; -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- on it, live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x1 .f32 := Memref.whole cc0_scratch0
abbrev scM0_1 : Memref sig .tc .vmem S1024x1 .f32 := Memref.whole cc0_scratch1

/-- What the region hands the body beside the windows: the two accumulators at anything, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The accumulators, point by point -/

/-- What point t adds to the first accumulator: per anchor row, the sum over the block's contrast rows of the
    similarity, the diagonal left out. -/
def sTerm (c : Dev nD) (t : Fin cfg0.N) : FVec F S1024x1 .f32 :=
  k0_pay8 (grid0.coords t) (ablk m c t) (cblk m c t)
/-- The similarities point t sums into the second accumulator: kept where the labels agree off the diagonal, zero elsewhere. -/
def pMat (c : Dev nD) (t : Fin cfg0.N) : FVec F S1024x1024 .f32 :=
  k0_pay7 (grid0.coords t) (ablk m c t) (cblk m c t) (rlab m c t) (clab m c t)

/-- THE ACCUMULATION: the two scratch columns after the body at position n. At the start of a row of points they
    restart from zero; elsewhere they continue from the point before. -/
def accAt (c : Dev nD) : (n : ℕ) → n < cfg0.N → Vec F S1024x1 .f32 × Vec F S1024x1 .f32
  | 0, hn => (k0_pay1 (k0_pay3 (F := F)) (sTerm m c ⟨0, hn⟩), k0_pay2 (pMat m c ⟨0, hn⟩) (k0_pay4 (F := F)))
  | n + 1, hn =>
    if (n + 1) % 8 = 0 then
      (k0_pay1 (k0_pay3 (F := F)) (sTerm m c ⟨n + 1, hn⟩), k0_pay2 (pMat m c ⟨n + 1, hn⟩) (k0_pay4 (F := F)))
    else
      (k0_pay1 (accAt c n (Nat.lt_of_succ_lt hn)).1 (sTerm m c ⟨n + 1, hn⟩), k0_pay2 (pMat m c ⟨n + 1, hn⟩) (accAt c n (Nat.lt_of_succ_lt hn)).2)

/-- At the start of a row of points: from zero. -/
theorem accAt_first (c : Dev nD) (t : Fin cfg0.N) (h0 : t.val % 8 = 0) :
    accAt m c t.val t.isLt = (k0_pay1 (k0_pay3 (F := F)) (sTerm m c t), k0_pay2 (pMat m c t) (k0_pay4 (F := F))) := by
  obtain ⟨n, hn⟩ := t
  cases n with
  | zero => rfl
  | succ n => exact (if_pos h0)

/-- Elsewhere: from what the point before left. -/
theorem accAt_next (c : Dev nD) (t : Fin cfg0.N) (h0 : ¬t.val % 8 = 0) :
    accAt m c t.val t.isLt = (k0_pay1 (accAt m c (t.val - 1) (Nat.lt_of_le_of_lt (Nat.sub_le _ _) t.isLt)).1 (sTerm m c t), k0_pay2 (pMat m c t) (accAt m c (t.val - 1) (Nat.lt_of_le_of_lt (Nat.sub_le _ _) t.isLt)).2) := by
  obtain ⟨n, hn⟩ := t
  cases n with
  | zero => exact absurd (Nat.zero_mod _) h0
  | succ n => exact (if_neg h0)

/-- The region invariant before position n: before the first point both accumulators at anything; afterwards at what
    the point before left in them. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-! ## The pipeline's proof data -/

/-- The proof data on core c: the arrays as the region finds them; after the body each input's buffer at its block,
    each result's buffer at its accumulator (consulted only on the last column, where the body copies it there); the
    invariant the accumulators; nothing owed; the feature matrix, which two windows read, held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).1
    | ⟨5, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (accAt m c t.val t.isLt).1 := by dsimp only [dats]
theorem after0_5 (c : Dev nD) (t : Fin cfg0.N) : (dats m 0 c).after 5 t = (accAt m c t.val t.isLt).2 := by dsimp only [dats]

/-- Each input's current staging buffer holds its block at every point, fetched there or not: an input not fetched
    at a point has the block index of the point before, and the body leaves its block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The host lines after the region -/

/-- The eleven host lines after the region as one function of the two result arrays (S: all pairs, P: pairs of equal
    label): minus the mean over the rows of log ((P + ε · S) / S). -/
def tailFn (S P : FVec F S8192x1 .f32) : FVec F S_ .f32 :=
  Host.negf (Host.divf
    (Host.reduceAdd (Host.log (Host.divf (addf P (mulf (broadcastInDim S8192x1 ![] bcast_S_S8192x1 (constant S_ .f32 0x33D6BF95#32)) S)) S))
      (constant S_ .f32 0x00000000#32) reducesTo_S8192x1_S_d0_1 h_S_)
    (constant S_ .f32 0x46000000#32))

end Cert.Kernel.Hand

end
-- ==== Proof.K.Body.lean ====
import proofs.«110631_j3728031613431_1_alg».proof.Proof.K.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, case by case

At a point the body first restarts the two accumulators from zero when the column coordinate is 0, then reads the four
input blocks, adds the point's row sums into the accumulators, and when the column coordinate is 7 copies both
accumulators into the two result buffers. Three assignments of the two conditions meet a point; for each the body's run
is stated once, on any whole buffers, together with the list of writes each accumulator (and, on the last column, each
result buffer) ends with. -/

set_option maxHeartbeats 1000000 in
/-- Column 0 (restart taken, copy-out not taken): the inputs are read and kept, the result buffers are not touched, both
    accumulators end with a zeroing write under an updating write. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S1024x1 .i32) (x3 : Vec F S1x1024 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨?_, ?_, fun xi4 xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 1000000 in
/-- Columns 1 to 6 (neither branch taken): the accumulators, found at what the point before left, each end with one
    updating write; the result buffers are not touched. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S1024x1 .i32) (x3 : Vec F S1x1024 .i32) (xs0 xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨?_, ?_, fun xi4 xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 1000000 in
/-- Column 7 (restart not taken, copy-out taken): as on columns 1 to 6, and then each result buffer, found at anything,
    ends with one write of what its accumulator then holds. -/
noncomputable def kernelRun0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S1024x1 .i32) (x3 : Vec F S1x1024 .i32) (xs0 xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨?_, ?_, ?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

/-! ## What the found writes leave

Every write the body makes goes through the whole-buffer rectangle at offset zero, so the last write into a buffer is
what the buffer then reads; a load of a buffer just written whole reads that write; a load of an input buffer reads its
contents. Hence each accumulator ends at the update term over what it held when the update read it — the zero column on
column 0, what the point before left elsewhere — and on the last column each result buffer ends at the same term. -/

/-- The offset of every rectangle the body reads or writes through: zero on both axes. -/
theorem hz : (![0, 0] : Fin 2 → Nat) = fun _ => 0 := funext fun a => by fin_cases a <;> rfl

/-- On column 0 the writes into the first accumulator cover it. -/
theorem scover0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x256 .f32) (x1 : Vec F S1024x256 .f32) (x2 : Vec F S1024x1 .i32) (x3 : Vec F S1x1024 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x1.size (by sl_kernel_rfl) y

/-- On column 0 the writes into the second accumulator cover it. -/
theorem scover0_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x256 .f32) (x1 : Vec F S1024x256 .f32) (x2 : Vec F S1024x1 .i32) (x3 : Vec F S1x1024 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y

/-- On column 0 the first accumulator ends at the zero column plus the point's row sums. -/
theorem canon0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x256 .f32) (x1 : Vec F S1024x256 .f32) (x2 : Vec F S1024x1 .i32) (x3 : Vec F S1x1024 .i32) :
    View.canon (kernelRun0_A c i arg2 harg2 arg3 harg3 arg4 harg4 arg5 harg5 arg6 harg6 arg7 harg7 arg8 harg8 arg9 harg9 hc0 hc1 x0 x1 x2 x3).1 = k0_pay1 (k0_pay3 (F := F)) (k0_pay8 i x0 x1) := by
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x256) hz]

/-- On column 0 the second accumulator ends at the zero column plus the point's row sums over pairs of equal label. -/
theorem canon0_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x256 .f32) (x1 : Vec F S1024x256 .f32) (x2 : Vec F S1024x1 .i32) (x3 : Vec F S1x1024 .i32) :
    View.canon (kernelRun0_A c i arg2 harg2 arg3 harg3 arg4 harg4 arg5 harg5 arg6 harg6 arg7 harg7 arg8 harg8 arg9 harg9 hc0 hc1 x0 x1 x2 x3).2.1 = k0_pay2 (k0_pay7 i x0 x1 x2 x3) (k0_pay4 (F := F)) := by
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, View.ld_unit_zero (S := S1024x256) hz, View.ld_unit_zero (S := S1024x1) hz, View.ld_unit_zero (S := S1x1024) hz]

/-- On columns 1 to 6 the write into the first accumulator covers it. -/
theorem scover0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S1024x1.size (by sl_kernel_rfl) y

/-- On columns 1 to 6 the write into the second accumulator covers it. -/
theorem scover0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S1024x1.size (by sl_kernel_rfl) y

/-- On columns 1 to 6 the first accumulator ends at what it held plus the point's row sums. -/
theorem canon0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x256 .f32) (x1 : Vec F S1024x256 .f32) (x2 : Vec F S1024x1 .i32) (x3 : Vec F S1x1024 .i32) (xs0 xs1 : Vec F S1024x1 .f32) :
    View.canon (kernelRun0_B c i arg2 harg2 arg3 harg3 arg4 harg4 arg5 harg5 arg6 harg6 arg7 harg7 arg8 harg8 arg9 harg9 hc0 hc1 x0 x1 x2 x3 xs0 xs1).1 = k0_pay1 xs0 (k0_pay8 i x0 x1) := by
  unfold kernelRun0_B
  dsimp only
  try sl_unfold_words
  rw [View.canon_unit_zero hz]
  simp only [View.readAt_eq_ld, harg2.read_unread, harg3.read_unread, harg8.read_unread, View.ld_unit_zero (S := S1024x256) hz, View.ld_unit_zero (S := S1024x1) hz]

/-- On columns 1 to 6 the second accumulator ends at what it held plus the point's row sums over pairs of equal label. -/
theorem canon0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x256 .f32) (x1 : Vec F S1024x256 .f32) (x2 : Vec F S1024x1 .i32) (x3 : Vec F S1x1024 .i32) (xs0 xs1 : Vec F S1024x1 .f32) :
    View.canon (kernelRun0_B c i arg2 harg2 arg3 harg3 arg4 harg4 arg5 harg5 arg6 harg6 arg7 harg7 arg8 harg8 arg9 harg9 hc0 hc1 x0 x1 x2 x3 xs0 xs1).2.1 = k0_pay2 (k0_pay7 i x0 x1 x2 x3) xs1 := by
  unfold kernelRun0_B
  dsimp only
  try sl_unfold_words
  rw [View.canon_unit_zero hz]
  simp only [View.readAt_eq_ld, harg2.read_unread, harg3.read_unread, harg4.read_unread, harg5.read_unread, harg9.read_unread, View.ld_unit_zero (S := S1024x256) hz, View.ld_unit_zero (S := S1024x1) hz, View.ld_unit_zero (S := S1x1024) hz]

/-- On column 7 the write into the first result buffer covers it. -/
theorem cover0_C_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1024x1.size (by sl_kernel_rfl) y

/-- On column 7 the write into the second result buffer covers it. -/
theorem cover0_C_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1024x1.size (by sl_kernel_rfl) y

/-- On column 7 the write into the first accumulator covers it. -/
theorem scover0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1024x1.size (by sl_kernel_rfl) y

/-- On column 7 the write into the second accumulator covers it. -/
theorem scover0_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- On column 7 the first result buffer ends at what the first accumulator has just been updated to. -/
theorem canon0_C_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) :
    View.canon (kernelRun0_C c i arg2 harg2 arg3 harg3 arg4 harg4 arg5 harg5 arg6 harg6 arg7 harg7 arg8 harg8 arg9 harg9 hc0 hc1 x0 x1 x2 x3 xs0 xs1).1 = k0_pay1 xs0 (k0_pay8 i x0 x1) := by
  unfold kernelRun0_C
  dsimp only
  try sl_unfold_words
  rw [View.canon_unit_zero hz, View.readCov_unit_zero (S := S1024x1) _ hz]
  simp only [View.readAt_eq_ld, harg2.read_unread, harg3.read_unread, harg8.read_unread, View.ld_unit_zero (S := S1024x256) hz, View.ld_unit_zero (S := S1024x1) hz]

/-- On column 7 the second result buffer ends at what the second accumulator has just been updated to. -/
theorem canon0_C_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) :
    View.canon (kernelRun0_C c i arg2 harg2 arg3 harg3 arg4 harg4 arg5 harg5 arg6 harg6 arg7 harg7 arg8 harg8 arg9 harg9 hc0 hc1 x0 x1 x2 x3 xs0 xs1).2.1 = k0_pay2 (k0_pay7 i x0 x1 x2 x3) xs1 := by
  unfold kernelRun0_C
  dsimp only
  try sl_unfold_words
  rw [View.canon_unit_zero hz, View.readCov_unit_zero (S := S1024x1) _ hz]
  simp only [View.readAt_eq_ld, harg2.read_unread, harg3.read_unread, harg4.read_unread, harg5.read_unread, harg9.read_unread, View.ld_unit_zero (S := S1024x256) hz, View.ld_unit_zero (S := S1024x1) hz, View.ld_unit_zero (S := S1x1024) hz]

/-- On column 7 the first accumulator ends at what it held plus the point's row sums. -/
theorem canon0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) :
    View.canon (kernelRun0_C c i arg2 harg2 arg3 harg3 arg4 harg4 arg5 harg5 arg6 harg6 arg7 harg7 arg8 harg8 arg9 harg9 hc0 hc1 x0 x1 x2 x3 xs0 xs1).2.2.1 = k0_pay1 xs0 (k0_pay8 i x0 x1) := by
  unfold kernelRun0_C
  dsimp only
  try sl_unfold_words
  rw [View.canon_unit_zero hz]
  simp only [View.readAt_eq_ld, harg2.read_unread, harg3.read_unread, harg8.read_unread, View.ld_unit_zero (S := S1024x256) hz, View.ld_unit_zero (S := S1024x1) hz]

/-- On column 7 the second accumulator ends at what it held plus the point's row sums over pairs of equal label. -/
theorem canon0_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) :
    View.canon (kernelRun0_C c i arg2 harg2 arg3 harg3 arg4 harg4 arg5 harg5 arg6 harg6 arg7 harg7 arg8 harg8 arg9 harg9 hc0 hc1 x0 x1 x2 x3 xs0 xs1).2.2.2.1 = k0_pay2 (k0_pay7 i x0 x1 x2 x3) xs1 := by
  unfold kernelRun0_C
  dsimp only
  try sl_unfold_words
  rw [View.canon_unit_zero hz]
  simp only [View.readAt_eq_ld, harg2.read_unread, harg3.read_unread, harg4.read_unread, harg5.read_unread, harg9.read_unread, View.ld_unit_zero (S := S1024x256) hz, View.ld_unit_zero (S := S1024x1) hz, View.ld_unit_zero (S := S1x1024) hz]

/-! ## The body obligation, at a generic point -/

/-- What the body is called with at point t: the invariant, nothing owed, each window's current buffer at what it then holds; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the closed forms of the two conditions say which of
    the three cases the point is in; that case's run applies. The invariant hands the body the accumulators — at
    anything before the first point, else at what the point before left — and takes them back at this point's terms; off
    the last column the result buffers go back as found, on it each holds its accumulator's term. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · by_cases h1 : t.val % 8 = 7
    · exfalso; omega
    · have hc0 : cond0_0 (grid0.coords t) := (hcond0_0 t).mpr h0
      have hc1 : ¬cond0_1 (grid0.coords t) := fun h => h1 ((hcond0_1 t).mp h)
      rw [Dat.leavesExact_idle (dats m 0 c) 4 t (idleAt0_4 t hc1) (noFlush0_4 t hc1)]
      rw [Dat.leavesExact_idle (dats m 0 c) 5 t (idleAt0_5 t hc1) (noFlush0_5 t hc1)]
      rw [accAt_first m c t h0]
      unfold sTerm pMat
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact (View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))).trans (canon0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))
            unfold owns; iexists _; isplitr
            swap; · iexact HS1
            ipureintro; exact (View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))).trans (canon0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact (View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))).trans (canon0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))
            unfold owns; iexists _; isplitr
            swap; · iexact HS1
            ipureintro; exact (View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))).trans (canon0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [show (dats m 0 c).leavesExact 5 t = owns (c : Thread nD τ) (ms0_5 t) fullShare ((dats m 0 c).after 5 t) from by
        unfold Dat.leavesExact; rw [liveAt0_5 t hc1], after0_5]
      rw [accAt_next m c t h0]
      unfold sTerm pMat
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact (View.read_writes_eq_canon _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
          unfold owns; iexists _; isplitr
          swap; · iexact HS1
          ipureintro; exact (View.read_writes_eq_canon _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (View.read_writes_eq_canon _ _ _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
      unfold owns; iexists _; isplitr
      swap; · iexact H5
      ipureintro; exact (View.read_writes_eq_canon _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
    · have hc1 : ¬cond0_1 (grid0.coords t) := fun h => h1 ((hcond0_1 t).mp h)
      rw [Dat.leavesExact_idle (dats m 0 c) 4 t (idleAt0_4 t hc1) (noFlush0_4 t hc1)]
      rw [Dat.leavesExact_idle (dats m 0 c) 5 t (idleAt0_5 t hc1) (noFlush0_5 t hc1)]
      rw [accAt_next m c t h0]
      unfold sTerm pMat
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact (View.read_writes_eq_canon _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
          unfold owns; iexists _; isplitr
          swap; · iexact HS1
          ipureintro; exact (View.read_writes_eq_canon _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1⟩, Hg⟩
  isplitl [HS0 HS1]
  · isplitl [HS0]
    · iexists _; iexact HS0
    iexists _; iexact HS1
  iexact Hg

end Cert.Kernel.Hand

end
-- ==== Proof.K.Launch.lean ====
import proofs.«110631_j3728031613431_1_alg».proof.Proof.K.Body
import Idealize.ShloMosaic.Lib.Pipeline.Regions
import Idealize.ShloMosaic.Lib.Pipeline.Frame
import Idealize.ShloMosaic.Lib.Pipeline.Kit
import Idealize.ShloMosaic.Lib.StableHlo.Run
import Idealize.ShloMosaic.Rules.PointsTo

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is left -/

/-- The first result array after every write-back, as the library computes it from the proof data. -/
abbrev outS (c : Dev nD) : Buf (Elt F) ((c : Thread nD τ).loc main_v7_0) := (dats m 0 c).arrAt 4 cfg0.N
/-- The second. -/
abbrev outP (c : Dev nD) : Buf (Elt F) ((c : Thread nD τ).loc main_v7_1) := (dats m 0 c).arrAt 5 cfg0.N

/-- Core c's buffers when the region is left: the two result arrays as written back, every other buffer as the
    region found it. -/
def W1 (c : Dev nD) : Valuation τ sig (Elt F) :=
  Function.update (Function.update (V0 m c) (Proc.devRef .tc main_v7_0) (outS m c)) (Proc.devRef .tc main_v7_1) (outP m c)

theorem W1_outS (c : Dev nD) : W1 m c (Proc.devRef .tc main_v7_0) = outS m c := by
  unfold W1
  rw [Function.update_of_ne (StableHlo.devRef_ne_of_ne (by decide)), Function.update_self]

theorem W1_outP (c : Dev nD) : W1 m c (Proc.devRef .tc main_v7_1) = outP m c := by
  unfold W1
  rw [Function.update_self]

/-- Off the two result arrays nothing changed. -/
theorem W1_of_ne (c : Dev nD) (b : Ref sig .tc) (h0 : b ≠ main_v7_0) (h1 : b ≠ main_v7_1) :
    W1 m c (Proc.devRef .tc b) = V0 m c (Proc.devRef .tc b) := by
  unfold W1
  rw [Function.update_of_ne (StableHlo.devRef_ne_of_ne h1), Function.update_of_ne (StableHlo.devRef_ne_of_ne h0)]

/-! ## The host lines after the region, as functions of the buffers -/

/-- The eleven lines after the region leave in the scalar result the tail function of the two result arrays. -/
theorem tail_value (c : Dev nD) :
    StableHlo.after hostOps1 (W1 m c) (Proc.devRef .tc main_v15) = tailFn (F := F) (outS m c) (outP m c) := by
  show StableHlo.after hostOps1 (W1 m c) (Proc.devRef .tc main_v15) = _
  after_results
  rw [W1_outS, W1_outP]
  rfl

/-- The seven lines in front of the region write neither argument, -/
theorem not_written0 (b : Ref sig .tc)
    (hb : b ≠ main_v0 ∧ b ≠ main_v1 ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.reshape_writes, Finset.mem_singleton] <;>
    exact StableHlo.devRef_ne_of_ne ‹_›

/-- nor do the eleven after it. -/
theorem not_written1 (b : Ref sig .tc)
    (hb : b ≠ main_cst ∧ b ≠ main_v8 ∧ b ≠ main_v9 ∧ b ≠ main_v10 ∧ b ≠ main_v11 ∧ b ≠ main_v12 ∧ b ≠ main_cst_0
      ∧ b ≠ main_v13 ∧ b ≠ main_cst_1 ∧ b ≠ main_v14 ∧ b ≠ main_v15) :
    ∀ op ∈ (hostOps1 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- A buffer that no host line writes and that is no result array ends as launched. -/
theorem kept (c : Dev nD) (b : Ref sig .tc)
    (hb0 : b ≠ main_v0 ∧ b ≠ main_v1 ∧ b ≠ main_v2 ∧ b ≠ main_v3 ∧ b ≠ main_v4 ∧ b ≠ main_v5 ∧ b ≠ main_v6)
    (hr0 : b ≠ main_v7_0) (hr1 : b ≠ main_v7_1)
    (hb1 : b ≠ main_cst ∧ b ≠ main_v8 ∧ b ≠ main_v9 ∧ b ≠ main_v10 ∧ b ≠ main_v11 ∧ b ≠ main_v12 ∧ b ≠ main_cst_0
      ∧ b ≠ main_v13 ∧ b ≠ main_cst_1 ∧ b ≠ main_v14 ∧ b ≠ main_v15) :
    StableHlo.after hostOps1 (W1 m c) (Proc.devRef .tc b) = m ((c : Thread nD τ).loc b) := by
  rw [StableHlo.after_of_forall_not_mem (b := Proc.devRef .tc b) hostOps1 (W1 m c) (not_written1 b hb1), W1_of_ne m c b hr0 hr1]
  exact StableHlo.after_of_forall_not_mem (b := Proc.devRef .tc b) hostOps0 (fun b => m (c, b)) (not_written0 b hb0)

/-! ## The windows' arrays and the buffers behind them -/

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_pos (by decide)]
theorem share5 (c : Dev nD) : (dats m 0 c).share 5 = fullShare := by
  unfold Dat.share; rw [if_pos (by decide)]

/-- The five distinct buffers behind the six windows, one by one. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v1) ↦{fullShare} Vv main_v1) ∗ (((c : Thread nD τ).loc main_v5) ↦{fullShare} Vv main_v5)
          ∗ (((c : Thread nD τ).loc main_v6) ↦{fullShare} Vv main_v6) ∗ (((c : Thread nD τ).loc main_v7_0) ↦{fullShare} Vv main_v7_0)
          ∗ (((c : Thread nD τ).loc main_v7_1) ↦{fullShare} Vv main_v7_1)) := by
  unfold Pipeline.arrBufs
  exact bigSep_eq_bigSepL_of_eq [main_v1, main_v5, main_v6, main_v7_0, main_v7_1] (by decide) (by decide) _

/-- The six windows' arrays as the proof data holds them: the feature matrix twice, half and half. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v5) ↦{fullShare} G 2) ∗ (((c : Thread nD τ).loc main_v6) ↦{fullShare} G 3)
          ∗ (((c : Thread nD τ).loc main_v7_0) ↦{fullShare} G 4) ∗ (((c : Thread nD τ).loc main_v7_1) ↦{fullShare} G 5)) := by
  unfold Dat.arrays
  rw [bigSep_W0]
  simp only [View.set_whole, share0, share1, share2, share3, share4, share5]

/-- An input array is never written: at every position it holds what the region found in it. -/
theorem arrAt0 (c : Dev nD) (n : ℕ) : (dats m 0 c).arrAt 0 n = V m c main_v1 := ((dats m 0 c).arrAt_in 0 rfl n).trans (A_eq m c 0)
theorem arrAt1 (c : Dev nD) (n : ℕ) : (dats m 0 c).arrAt 1 n = V m c main_v1 := ((dats m 0 c).arrAt_in 1 rfl n).trans (A_eq m c 1)
theorem arrAt2 (c : Dev nD) (n : ℕ) : (dats m 0 c).arrAt 2 n = V m c main_v5 := ((dats m 0 c).arrAt_in 2 rfl n).trans (A_eq m c 2)
theorem arrAt3 (c : Dev nD) (n : ℕ) : (dats m 0 c).arrAt 3 n = V m c main_v6 := ((dats m 0 c).arrAt_in 3 rfl n).trans (A_eq m c 3)
/-- Before the first point a result array holds what the region found in it. -/
theorem arrAt4_zero (c : Dev nD) : (dats m 0 c).arrAt 4 0 = V m c main_v7_0 := A_eq m c 4
theorem arrAt5_zero (c : Dev nD) : (dats m 0 c).arrAt 5 0 = V m c main_v7_1 := A_eq m c 5

/-- ENTRY: the feature matrix's buffer, held whole, is dealt half and half to the two windows that read it; every other
    window's array is its own buffer. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq, arrAt0, arrAt1, arrAt2, arrAt3, arrAt4_zero, arrAt5_zero]
  iintro ⟨H1, H5, H6, H70, H71⟩
  ihave H := (pointsTo_share (PosShare.mem_left_op_right fullShare)).1 $$ H1
  icases H with ⟨Hl, Hr⟩
  isplitl [Hl]; · iexact Hl
  isplitl [Hr]; · iexact Hr
  isplitl [H5]; · iexact H5
  isplitl [H6]; · iexact H6
  isplitl [H70]; · iexact H70
  iexact H71

/-- EXIT: the two halves of the feature matrix's buffer, both at what the region found, are joined again; the result
    arrays come back as written. -/
theorem exit_join (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W1 m c (Proc.devRef .tc b)) := by
  rw [arrBufs0_eq, arrays0_eq, arrAt0, arrAt1, arrAt2, arrAt3]
  rw [W1_of_ne m c main_v1 (by decide) (by decide), W1_of_ne m c main_v5 (by decide) (by decide), W1_of_ne m c main_v6 (by decide) (by decide),
    W1_outS, W1_outP]
  iintro ⟨Hl, Hr, H5, H6, H70, H71⟩
  isplitl [Hl Hr]
  · iapply (pointsTo_share (PosShare.mem_left_op_right fullShare)).2
    isplitl [Hl]; · iexact Hl
    iexact Hr
  isplitl [H5]; · iexact H5
  isplitl [H6]; · iexact H6
  isplitl [H70]; · iexact H70
  iexact H71

/-- The buffers that are no window's array are the same before and after the region. -/
theorem rest_W1 (c : Dev nD) :
    (Pipeline.unscopedRest (Ix := Unit) (Name := ℕ) (U := UR sig nD τ) (Lvl := ℕ) spec0 c (fun b => W1 m c (Proc.devRef .tc b)) : sProp 𝕄)
      = Pipeline.unscopedRest spec0 c (V m c) := by
  unfold Pipeline.unscopedRest
  refine bigSep_congr fun b hb => ?_
  have hb' := (Finset.mem_sdiff.mp hb).2
  show (((c : Thread nD τ).loc b) ↦{fullShare} W1 m c (Proc.devRef .tc b) : sProp 𝕄) = _
  rw [W1_of_ne m c b (fun e => hb' (Finset.mem_image.mpr ⟨4, Finset.mem_univ _, e.symm⟩))
    (fun e => hb' (Finset.mem_image.mpr ⟨5, Finset.mem_univ _, e.symm⟩))]

/-! ## @main as three segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- Core c's buffers at launch. -/
abbrev Vm (c : Dev nD) : Valuation τ sig (Elt F) := fun b => m (c, b)

/-- What rides beside the buffers through the host lines: the generator register at some state, and that the core
    owes nothing. -/
abbrev R (c : Dev nD) : sProp 𝕄 :=
  iprop((∃ r, prngReg c r) ∗ ∃ W, owes (c : Thread nD τ) (0 : CellTallies nD τ sig Unit) W)

/-- The seven lines in front of the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (Vm m) R

/-- The eleven lines after it, from the buffers as the region leaves them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m) R

set_option backward.isDefEq.respectTransparency.types false in
/-- THE REGION. Entered from what the first seven lines left: the five buffers behind the windows go to the pipeline (the
    feature matrix's split in two), the generator register into the invariant, every other buffer past the region.
    Left with the windows' arrays at their final contents put back beside those buffers. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Ha, Hrest⟩, Hp, HO⟩, -, -⟩
    imodintro
    isplitl [Ha]; · iapply (entry_split m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin m c)
    unfold Pipeline.ΦA
    iintro ⟨Hp, -, Hr⟩
    isplitl [Hr]; · iexact Hr
    iexact Hp
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c _, rest_W1]
    iintro ⟨Ha, HO, HY, HZ⟩
    imodintro
    isplitl [Ha HZ]
    · isplitl [Ha]; · iapply (exit_join m c); iexact Ha
      iexact HZ
    isplitl [HY]; · iexact HY
    unfold Pipeline.Dat.owesAt Pipeline.owesWithin
    icases HO with ⟨%W, -, HO⟩; iexists W; iexact HO

/-- What core c's buffers hold at the end. -/
abbrev Wf (c : Dev nD) : Valuation τ sig (Elt F) := StableHlo.after hostOps1 (W1 m c)

/-- The last thread state: the unscoped buffers at what the eleven lines left, the generator register. -/
abbrev Tₙ (c : Dev nD) : sProp 𝕄 :=
  iprop(StableHlo.held (c : Thread nD τ) (Pipeline.ucRefs τ sig) (Wf m c) ∗ ∃ r, prngReg c r)

/-- A reference of @main's own is an unscoped buffer of the core. -/
theorem mem_ucRefs (b : Ref sig .tc) (hb : b.isScoped = false) : Proc.devRef .tc b ∈ Pipeline.ucRefs τ sig :=
  Finset.mem_filter.mpr ⟨StableHlo.devRef_mem_tcRefs b, fun h => Bool.false_ne_true (hb.symm.trans h)⟩

set_option backward.isDefEq.respectTransparency.types false in
/-- THE RUN: at the compiled mesh, for any values, from any memory with zero counters, every weakly fair execution of
    @main on the TensorCores terminates, nothing faulting, and in every final state the result is the host lines after
    the region applied to the two result arrays as the library computes them from the proof data, and both arguments
    are as they were. -/
theorem run_main : θ_run defs (onTc (τ := τ) (main (F := F))) ⟨m, fun _ => 0, ρ⟩ (fun r => ∀ c : Dev nD,
      r.2.mem ((c.tc : Thread nD τ).loc main_v15) = tailFn (F := F) ((dats m 0 c).arrAt 4 cfg0.N) ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj emb₁ defs₀ 𝒱₀ L lv m ρ main
    [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vm m c) ∗ R c)) (Tₙ := Tₙ m)
    (hch := ⟨fun _ => .rfl, fun _ => .rfl, fun _ => .rfl, fun c => by
      show iprop(StableHlo.held (c : Thread nD τ) (Pipeline.ucRefs τ sig) (Wf m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Vm m c) from Pipeline.unscopedBufs_held c (Vm m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v15) = tailFn (F := F) (outS m c) (outP m c)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      show iprop((StableHlo.held (c : Thread nD τ) (Pipeline.ucRefs τ sig) (Wf m c) ∗ ∃ r, prngReg c r) ∗ SI s') ⊢ _
      unfold StableHlo.held
      iintro ⟨⟨Hh, -⟩, HSI⟩
      ihave Hr := (pointsTo_read_all (Pipeline.ucRefs τ sig) (fun b => ((c : Thread nD τ).1, b)) (Wf m c) s') $$ [Hh HSI]
      · isplitl [Hh] <;> iassumption
      icases Hr with ⟨%hr, HSI⟩
      imodintro
      isplitr
      · ipureintro
        exact ⟨(hr _ (mem_ucRefs main_v15 rfl)).trans (tail_value m c),
          (hr _ (mem_ucRefs main_arg0 rfl)).trans (kept m c main_arg0 (by decide) (by decide) (by decide) (by decide)),
          (hr _ (mem_ucRefs main_arg1 rfl)).trans (kept m c main_arg1 (by decide) (by decide) (by decide) (by decide))⟩
      iexact HSI)
    (hQ := fun _ h => h)

end Cert.Kernel.Hand

end
-- ==== Proof.KI.Base.lean ====
/-
  The pipelined loss kernel, read at any float instance: what both of its frames and its value rest on.

  The region runs on a grid of 8 × 8 points (bi, bj), bj fastest. At a point the body sees block bi of the
  8192 × 256 feature matrix (window 0: the anchor rows), block bj of the SAME matrix (window 1: the contrast
  rows), the anchor rows' labels (window 2) and the contrast rows' labels (window 3). Two scratch columns of
  1024 entries are carried along a row of points: zeroed at bj = 0, then at every point the row sums of the
  masked similarities are added (all pairs off the diagonal into the first; pairs of equal label off the
  diagonal into the second), and at bj = 7 both are copied to the two result windows, which are written back
  there and nowhere else.

  This module names, for any instance F: the arrays as the region finds them (after the seven host lines in
  front of it), each window's block at a point, the two branch conditions in closed form, where the result
  windows are idle, the two accumulators point by point as terms over the body's payloads, and the pipeline's
  proof data stated over them.
-/
import proofs.«110631_j3728031613431_1_alg».proof.Proof.Gen.KernelIdeal.Launch
import proofs.«110631_j3728031613431_1_alg».proof.Proof.Gen.KernelIdeal.Skeleton
import proofs.«110631_j3728031613431_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffers when the region is entered: the seven host lines in front of it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at their literal types: anchor rows, contrast rows, anchor labels, contrast labels. -/
abbrev ablk (c : Dev nD) (t : Fin cfg0.N) : Vec F S1024x256 .f32 := iblk m c 0 t
abbrev cblk (c : Dev nD) (t : Fin cfg0.N) : Vec F S1024x256 .f32 := iblk m c 1 t
abbrev rlab (c : Dev nD) (t : Fin cfg0.N) : Vec F S1024x1 .i32 := iblk m c 2 t
abbrev clab (c : Dev nD) (t : Fin cfg0.N) : Vec F S1x1024 .i32 := iblk m c 3 t

/-! ## The two branch conditions -/

/-- The first branch (zero the accumulators) is taken where the column coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (copy the accumulators out) is taken where the column coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column a result window is idle and is not written back; -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- on it, live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x1 .f32 := Memref.whole cc0_scratch0
abbrev scM0_1 : Memref sig .tc .vmem S1024x1 .f32 := Memref.whole cc0_scratch1

/-- What the region hands the body beside the windows: the two accumulators at anything, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The accumulators, point by point -/

/-- What point t adds to the first accumulator: per anchor row, the sum over the block's contrast rows of the
    similarity, the diagonal left out. -/
def sTerm (c : Dev nD) (t : Fin cfg0.N) : FVec F S1024x1 .f32 :=
  k0_pay8 (grid0.coords t) (ablk m c t) (cblk m c t)
/-- The similarities point t sums into the second accumulator: kept where the labels agree off the diagonal, zero elsewhere. -/
def pMat (c : Dev nD) (t : Fin cfg0.N) : FVec F S1024x1024 .f32 :=
  k0_pay7 (grid0.coords t) (ablk m c t) (cblk m c t) (rlab m c t) (clab m c t)

/-- THE ACCUMULATION: the two scratch columns after the body at position n. At the start of a row of points they
    restart from zero; elsewhere they continue from the point before. -/
def accAt (c : Dev nD) : (n : ℕ) → n < cfg0.N → Vec F S1024x1 .f32 × Vec F S1024x1 .f32
  | 0, hn => (k0_pay1 (k0_pay3 (F := F)) (sTerm m c ⟨0, hn⟩), k0_pay2 (pMat m c ⟨0, hn⟩) (k0_pay4 (F := F)))
  | n + 1, hn =>
    if (n + 1) % 8 = 0 then
      (k0_pay1 (k0_pay3 (F := F)) (sTerm m c ⟨n + 1, hn⟩), k0_pay2 (pMat m c ⟨n + 1, hn⟩) (k0_pay4 (F := F)))
    else
      (k0_pay1 (accAt c n (Nat.lt_of_succ_lt hn)).1 (sTerm m c ⟨n + 1, hn⟩), k0_pay2 (pMat m c ⟨n + 1, hn⟩) (accAt c n (Nat.lt_of_succ_lt hn)).2)

/-- At the start of a row of points: from zero. -/
theorem accAt_first (c : Dev nD) (t : Fin cfg0.N) (h0 : t.val % 8 = 0) :
    accAt m c t.val t.isLt = (k0_pay1 (k0_pay3 (F := F)) (sTerm m c t), k0_pay2 (pMat m c t) (k0_pay4 (F := F))) := by
  obtain ⟨n, hn⟩ := t
  cases n with
  | zero => rfl
  | succ n => exact (if_pos h0)

/-- Elsewhere: from what the point before left. -/
theorem accAt_next (c : Dev nD) (t : Fin cfg0.N) (h0 : ¬t.val % 8 = 0) :
    accAt m c t.val t.isLt = (k0_pay1 (accAt m c (t.val - 1) (Nat.lt_of_le_of_lt (Nat.sub_le _ _) t.isLt)).1 (sTerm m c t), k0_pay2 (pMat m c t) (accAt m c (t.val - 1) (Nat.lt_of_le_of_lt (Nat.sub_le _ _) t.isLt)).2) := by
  obtain ⟨n, hn⟩ := t
  cases n with
  | zero => exact absurd (Nat.zero_mod _) h0
  | succ n => exact (if_neg h0)

/-- The region invariant before position n: before the first point both accumulators at anything; afterwards at what
    the point before left in them. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-! ## The pipeline's proof data -/

/-- The proof data on core c: the arrays as the region finds them; after the body each input's buffer at its block,
    each result's buffer at its accumulator (consulted only on the last column, where the body copies it there); the
    invariant the accumulators; nothing owed; the feature matrix, which two windows read, held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).1
    | ⟨5, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (accAt m c t.val t.isLt).1 := by dsimp only [dats]
theorem after0_5 (c : Dev nD) (t : Fin cfg0.N) : (dats m 0 c).after 5 t = (accAt m c t.val t.isLt).2 := by dsimp only [dats]

/-- Each input's current staging buffer holds its block at every point, fetched there or not: an input not fetched
    at a point has the block index of the point before, and the body leaves its block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The host lines after the region -/

/-- The eleven host lines after the region as one function of the two result arrays (S: all pairs, P: pairs of equal
    label): minus the mean over the rows of log ((P + ε · S) / S). -/
def tailFn (S P : FVec F S8192x1 .f32) : FVec F S_ .f32 :=
  Host.negf (Host.divf
    (Host.reduceAdd (Host.log (Host.divf (addf P (mulf (broadcastInDim S8192x1 ![] bcast_S_S8192x1 (constant S_ .f32 0x33D6BF95#32)) S)) S))
      (constant S_ .f32 0x00000000#32) reducesTo_S8192x1_S_d0_1 h_S_)
    (constant S_ .f32 0x46000000#32))

end Cert.KernelIdeal.Hand

end
-- ==== Proof.KI.Body.lean ====
import proofs.«110631_j3728031613431_1_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, case by case

At a point the body first restarts the two accumulators from zero when the column coordinate is 0, then reads the four
input blocks, adds the point's row sums into the accumulators, and when the column coordinate is 7 copies both
accumulators into the two result buffers. Three assignments of the two conditions meet a point; for each the body's run
is stated once, on any whole buffers, together with the list of writes each accumulator (and, on the last column, each
result buffer) ends with. -/

set_option maxHeartbeats 1000000 in
/-- Column 0 (restart taken, copy-out not taken): the inputs are read and kept, the result buffers are not touched, both
    accumulators end with a zeroing write under an updating write. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S1024x1 .i32) (x3 : Vec F S1x1024 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨?_, ?_, fun xi4 xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 1000000 in
/-- Columns 1 to 6 (neither branch taken): the accumulators, found at what the point before left, each end with one
    updating write; the result buffers are not touched. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S1024x1 .i32) (x3 : Vec F S1x1024 .i32) (xs0 xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨?_, ?_, fun xi4 xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 1000000 in
/-- Column 7 (restart not taken, copy-out taken): as on columns 1 to 6, and then each result buffer, found at anything,
    ends with one write of what its accumulator then holds. -/
noncomputable def kernelRun0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S1024x1 .i32) (x3 : Vec F S1x1024 .i32) (xs0 xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9) K } := by
  refine ⟨?_, ?_, ?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

/-! ## What the found writes leave

Every write the body makes goes through the whole-buffer rectangle at offset zero, so the last write into a buffer is
what the buffer then reads; a load of a buffer just written whole reads that write; a load of an input buffer reads its
contents. Hence each accumulator ends at the update term over what it held when the update read it — the zero column on
column 0, what the point before left elsewhere — and on the last column each result buffer ends at the same term. -/

/-- The offset of every rectangle the body reads or writes through: zero on both axes. -/
theorem hz : (![0, 0] : Fin 2 → Nat) = fun _ => 0 := funext fun a => by fin_cases a <;> rfl

/-- On column 0 the writes into the first accumulator cover it. -/
theorem scover0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x256 .f32) (x1 : Vec F S1024x256 .f32) (x2 : Vec F S1024x1 .i32) (x3 : Vec F S1x1024 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x1.size (by sl_kernel_rfl) y

/-- On column 0 the writes into the second accumulator cover it. -/
theorem scover0_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x256 .f32) (x1 : Vec F S1024x256 .f32) (x2 : Vec F S1024x1 .i32) (x3 : Vec F S1x1024 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y

/-- On column 0 the first accumulator ends at the zero column plus the point's row sums. -/
theorem canon0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x256 .f32) (x1 : Vec F S1024x256 .f32) (x2 : Vec F S1024x1 .i32) (x3 : Vec F S1x1024 .i32) :
    View.canon (kernelRun0_A c i arg2 harg2 arg3 harg3 arg4 harg4 arg5 harg5 arg6 harg6 arg7 harg7 arg8 harg8 arg9 harg9 hc0 hc1 x0 x1 x2 x3).1 = k0_pay1 (k0_pay3 (F := F)) (k0_pay8 i x0 x1) := by
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x256) hz]

/-- On column 0 the second accumulator ends at the zero column plus the point's row sums over pairs of equal label. -/
theorem canon0_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x256 .f32) (x1 : Vec F S1024x256 .f32) (x2 : Vec F S1024x1 .i32) (x3 : Vec F S1x1024 .i32) :
    View.canon (kernelRun0_A c i arg2 harg2 arg3 harg3 arg4 harg4 arg5 harg5 arg6 harg6 arg7 harg7 arg8 harg8 arg9 harg9 hc0 hc1 x0 x1 x2 x3).2.1 = k0_pay2 (k0_pay7 i x0 x1 x2 x3) (k0_pay4 (F := F)) := by
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, View.ld_unit_zero (S := S1024x256) hz, View.ld_unit_zero (S := S1024x1) hz, View.ld_unit_zero (S := S1x1024) hz]

/-- On columns 1 to 6 the write into the first accumulator covers it. -/
theorem scover0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S1024x1.size (by sl_kernel_rfl) y

/-- On columns 1 to 6 the write into the second accumulator covers it. -/
theorem scover0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S1024x1.size (by sl_kernel_rfl) y

/-- On columns 1 to 6 the first accumulator ends at what it held plus the point's row sums. -/
theorem canon0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x256 .f32) (x1 : Vec F S1024x256 .f32) (x2 : Vec F S1024x1 .i32) (x3 : Vec F S1x1024 .i32) (xs0 xs1 : Vec F S1024x1 .f32) :
    View.canon (kernelRun0_B c i arg2 harg2 arg3 harg3 arg4 harg4 arg5 harg5 arg6 harg6 arg7 harg7 arg8 harg8 arg9 harg9 hc0 hc1 x0 x1 x2 x3 xs0 xs1).1 = k0_pay1 xs0 (k0_pay8 i x0 x1) := by
  unfold kernelRun0_B
  dsimp only
  try sl_unfold_words
  rw [View.canon_unit_zero hz]
  simp only [View.readAt_eq_ld, harg2.read_unread, harg3.read_unread, harg8.read_unread, View.ld_unit_zero (S := S1024x256) hz, View.ld_unit_zero (S := S1024x1) hz]

/-- On columns 1 to 6 the second accumulator ends at what it held plus the point's row sums over pairs of equal label. -/
theorem canon0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x256 .f32) (x1 : Vec F S1024x256 .f32) (x2 : Vec F S1024x1 .i32) (x3 : Vec F S1x1024 .i32) (xs0 xs1 : Vec F S1024x1 .f32) :
    View.canon (kernelRun0_B c i arg2 harg2 arg3 harg3 arg4 harg4 arg5 harg5 arg6 harg6 arg7 harg7 arg8 harg8 arg9 harg9 hc0 hc1 x0 x1 x2 x3 xs0 xs1).2.1 = k0_pay2 (k0_pay7 i x0 x1 x2 x3) xs1 := by
  unfold kernelRun0_B
  dsimp only
  try sl_unfold_words
  rw [View.canon_unit_zero hz]
  simp only [View.readAt_eq_ld, harg2.read_unread, harg3.read_unread, harg4.read_unread, harg5.read_unread, harg9.read_unread, View.ld_unit_zero (S := S1024x256) hz, View.ld_unit_zero (S := S1024x1) hz, View.ld_unit_zero (S := S1x1024) hz]

/-- On column 7 the write into the first result buffer covers it. -/
theorem cover0_C_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1024x1.size (by sl_kernel_rfl) y

/-- On column 7 the write into the second result buffer covers it. -/
theorem cover0_C_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1024x1.size (by sl_kernel_rfl) y

/-- On column 7 the write into the first accumulator covers it. -/
theorem scover0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1024x1.size (by sl_kernel_rfl) y

/-- On column 7 the write into the second accumulator covers it. -/
theorem scover0_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- On column 7 the first result buffer ends at what the first accumulator has just been updated to. -/
theorem canon0_C_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) :
    View.canon (kernelRun0_C c i arg2 harg2 arg3 harg3 arg4 harg4 arg5 harg5 arg6 harg6 arg7 harg7 arg8 harg8 arg9 harg9 hc0 hc1 x0 x1 x2 x3 xs0 xs1).1 = k0_pay1 xs0 (k0_pay8 i x0 x1) := by
  unfold kernelRun0_C
  dsimp only
  try sl_unfold_words
  rw [View.canon_unit_zero hz, View.readCov_unit_zero (S := S1024x1) _ hz]
  simp only [View.readAt_eq_ld, harg2.read_unread, harg3.read_unread, harg8.read_unread, View.ld_unit_zero (S := S1024x256) hz, View.ld_unit_zero (S := S1024x1) hz]

/-- On column 7 the second result buffer ends at what the second accumulator has just been updated to. -/
theorem canon0_C_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) :
    View.canon (kernelRun0_C c i arg2 harg2 arg3 harg3 arg4 harg4 arg5 harg5 arg6 harg6 arg7 harg7 arg8 harg8 arg9 harg9 hc0 hc1 x0 x1 x2 x3 xs0 xs1).2.1 = k0_pay2 (k0_pay7 i x0 x1 x2 x3) xs1 := by
  unfold kernelRun0_C
  dsimp only
  try sl_unfold_words
  rw [View.canon_unit_zero hz, View.readCov_unit_zero (S := S1024x1) _ hz]
  simp only [View.readAt_eq_ld, harg2.read_unread, harg3.read_unread, harg4.read_unread, harg5.read_unread, harg9.read_unread, View.ld_unit_zero (S := S1024x256) hz, View.ld_unit_zero (S := S1024x1) hz, View.ld_unit_zero (S := S1x1024) hz]

/-- On column 7 the first accumulator ends at what it held plus the point's row sums. -/
theorem canon0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) :
    View.canon (kernelRun0_C c i arg2 harg2 arg3 harg3 arg4 harg4 arg5 harg5 arg6 harg6 arg7 harg7 arg8 harg8 arg9 harg9 hc0 hc1 x0 x1 x2 x3 xs0 xs1).2.2.1 = k0_pay1 xs0 (k0_pay8 i x0 x1) := by
  unfold kernelRun0_C
  dsimp only
  try sl_unfold_words
  rw [View.canon_unit_zero hz]
  simp only [View.readAt_eq_ld, harg2.read_unread, harg3.read_unread, harg8.read_unread, View.ld_unit_zero (S := S1024x256) hz, View.ld_unit_zero (S := S1024x1) hz]

/-- On column 7 the second accumulator ends at what it held plus the point's row sums over pairs of equal label. -/
theorem canon0_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x256 .f32) (x1 : Vec F S1024x256 .f32) (x2 : Vec F S1024x1 .i32) (x3 : Vec F S1x1024 .i32) (xs0 xs1 : Vec F S1024x1 .f32) :
    View.canon (kernelRun0_C c i arg2 harg2 arg3 harg3 arg4 harg4 arg5 harg5 arg6 harg6 arg7 harg7 arg8 harg8 arg9 harg9 hc0 hc1 x0 x1 x2 x3 xs0 xs1).2.2.2.1 = k0_pay2 (k0_pay7 i x0 x1 x2 x3) xs1 := by
  unfold kernelRun0_C
  dsimp only
  try sl_unfold_words
  rw [View.canon_unit_zero hz]
  simp only [View.readAt_eq_ld, harg2.read_unread, harg3.read_unread, harg4.read_unread, harg5.read_unread, harg9.read_unread, View.ld_unit_zero (S := S1024x256) hz, View.ld_unit_zero (S := S1024x1) hz, View.ld_unit_zero (S := S1x1024) hz]

/-! ## The body obligation, at a generic point -/

/-- What the body is called with at point t: the invariant, nothing owed, each window's current buffer at what it then holds; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the closed forms of the two conditions say which of
    the three cases the point is in; that case's run applies. The invariant hands the body the accumulators — at
    anything before the first point, else at what the point before left — and takes them back at this point's terms; off
    the last column the result buffers go back as found, on it each holds its accumulator's term. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · by_cases h1 : t.val % 8 = 7
    · exfalso; omega
    · have hc0 : cond0_0 (grid0.coords t) := (hcond0_0 t).mpr h0
      have hc1 : ¬cond0_1 (grid0.coords t) := fun h => h1 ((hcond0_1 t).mp h)
      rw [Dat.leavesExact_idle (dats m 0 c) 4 t (idleAt0_4 t hc1) (noFlush0_4 t hc1)]
      rw [Dat.leavesExact_idle (dats m 0 c) 5 t (idleAt0_5 t hc1) (noFlush0_5 t hc1)]
      rw [accAt_first m c t h0]
      unfold sTerm pMat
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact (View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))).trans (canon0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))
            unfold owns; iexists _; isplitr
            swap; · iexact HS1
            ipureintro; exact (View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))).trans (canon0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact (View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))).trans (canon0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))
            unfold owns; iexists _; isplitr
            swap; · iexact HS1
            ipureintro; exact (View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))).trans (canon0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t))
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [show (dats m 0 c).leavesExact 5 t = owns (c : Thread nD τ) (ms0_5 t) fullShare ((dats m 0 c).after 5 t) from by
        unfold Dat.leavesExact; rw [liveAt0_5 t hc1], after0_5]
      rw [accAt_next m c t h0]
      unfold sTerm pMat
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact (View.read_writes_eq_canon _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
          unfold owns; iexists _; isplitr
          swap; · iexact HS1
          ipureintro; exact (View.read_writes_eq_canon _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (View.read_writes_eq_canon _ _ _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
      unfold owns; iexists _; isplitr
      swap; · iexact H5
      ipureintro; exact (View.read_writes_eq_canon _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
    · have hc1 : ¬cond0_1 (grid0.coords t) := fun h => h1 ((hcond0_1 t).mp h)
      rw [Dat.leavesExact_idle (dats m 0 c) 4 t (idleAt0_4 t hc1) (noFlush0_4 t hc1)]
      rw [Dat.leavesExact_idle (dats m 0 c) 5 t (idleAt0_5 t hc1) (noFlush0_5 t hc1)]
      rw [accAt_next m c t h0]
      unfold sTerm pMat
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact (View.read_writes_eq_canon _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
          unfold owns; iexists _; isplitr
          swap; · iexact HS1
          ipureintro; exact (View.read_writes_eq_canon _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)).trans (canon0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (ablk m c t) (cblk m c t) (rlab m c t) (clab m c t) (accAt m c (t.val - 1) (Nat.lt_of_le_of_lt (Nat.sub_le _ _) t.isLt)).1 (accAt m c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1⟩, Hg⟩
  isplitl [HS0 HS1]
  · isplitl [HS0]
    · iexists _; iexact HS0
    iexists _; iexact HS1
  iexact Hg

end Cert.KernelIdeal.Hand

end
-- ==== Proof.KI.Launch.lean ====
import proofs.«110631_j3728031613431_1_alg».proof.Proof.KI.Body
import Idealize.ShloMosaic.Lib.Pipeline.Regions
import Idealize.ShloMosaic.Lib.Pipeline.Frame
import Idealize.ShloMosaic.Lib.Pipeline.Kit
import Idealize.ShloMosaic.Lib.StableHlo.Run
import Idealize.ShloMosaic.Rules.PointsTo

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is left -/

/-- The first result array after every write-back, as the library computes it from the proof data. -/
abbrev outS (c : Dev nD) : Buf (Elt F) ((c : Thread nD τ).loc main_v7_0) := (dats m 0 c).arrAt 4 cfg0.N
/-- The second. -/
abbrev outP (c : Dev nD) : Buf (Elt F) ((c : Thread nD τ).loc main_v7_1) := (dats m 0 c).arrAt 5 cfg0.N

/-- Core c's buffers when the region is left: the two result arrays as written back, every other buffer as the
    region found it. -/
def W1 (c : Dev nD) : Valuation τ sig (Elt F) :=
  Function.update (Function.update (V0 m c) (Proc.devRef .tc main_v7_0) (outS m c)) (Proc.devRef .tc main_v7_1) (outP m c)

theorem W1_outS (c : Dev nD) : W1 m c (Proc.devRef .tc main_v7_0) = outS m c := by
  unfold W1
  rw [Function.update_of_ne (StableHlo.devRef_ne_of_ne (by decide)), Function.update_self]

theorem W1_outP (c : Dev nD) : W1 m c (Proc.devRef .tc main_v7_1) = outP m c := by
  unfold W1
  rw [Function.update_self]

/-- Off the two result arrays nothing changed. -/
theorem W1_of_ne (c : Dev nD) (b : Ref sig .tc) (h0 : b ≠ main_v7_0) (h1 : b ≠ main_v7_1) :
    W1 m c (Proc.devRef .tc b) = V0 m c (Proc.devRef .tc b) := by
  unfold W1
  rw [Function.update_of_ne (StableHlo.devRef_ne_of_ne h1), Function.update_of_ne (StableHlo.devRef_ne_of_ne h0)]

/-! ## The host lines after the region, as functions of the buffers -/

/-- The eleven lines after the region leave in the scalar result the tail function of the two result arrays. -/
theorem tail_value (c : Dev nD) :
    StableHlo.after hostOps1 (W1 m c) (Proc.devRef .tc main_v15) = tailFn (F := F) (outS m c) (outP m c) := by
  show StableHlo.after hostOps1 (W1 m c) (Proc.devRef .tc main_v15) = _
  after_results
  rw [W1_outS, W1_outP]
  rfl

/-- The seven lines in front of the region write neither argument, -/
theorem not_written0 (b : Ref sig .tc)
    (hb : b ≠ main_v0 ∧ b ≠ main_v1 ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.reshape_writes, Finset.mem_singleton] <;>
    exact StableHlo.devRef_ne_of_ne ‹_›

/-- nor do the eleven after it. -/
theorem not_written1 (b : Ref sig .tc)
    (hb : b ≠ main_cst ∧ b ≠ main_v8 ∧ b ≠ main_v9 ∧ b ≠ main_v10 ∧ b ≠ main_v11 ∧ b ≠ main_v12 ∧ b ≠ main_cst_0
      ∧ b ≠ main_v13 ∧ b ≠ main_cst_1 ∧ b ≠ main_v14 ∧ b ≠ main_v15) :
    ∀ op ∈ (hostOps1 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- A buffer that no host line writes and that is no result array ends as launched. -/
theorem kept (c : Dev nD) (b : Ref sig .tc)
    (hb0 : b ≠ main_v0 ∧ b ≠ main_v1 ∧ b ≠ main_v2 ∧ b ≠ main_v3 ∧ b ≠ main_v4 ∧ b ≠ main_v5 ∧ b ≠ main_v6)
    (hr0 : b ≠ main_v7_0) (hr1 : b ≠ main_v7_1)
    (hb1 : b ≠ main_cst ∧ b ≠ main_v8 ∧ b ≠ main_v9 ∧ b ≠ main_v10 ∧ b ≠ main_v11 ∧ b ≠ main_v12 ∧ b ≠ main_cst_0
      ∧ b ≠ main_v13 ∧ b ≠ main_cst_1 ∧ b ≠ main_v14 ∧ b ≠ main_v15) :
    StableHlo.after hostOps1 (W1 m c) (Proc.devRef .tc b) = m ((c : Thread nD τ).loc b) := by
  rw [StableHlo.after_of_forall_not_mem (b := Proc.devRef .tc b) hostOps1 (W1 m c) (not_written1 b hb1), W1_of_ne m c b hr0 hr1]
  exact StableHlo.after_of_forall_not_mem (b := Proc.devRef .tc b) hostOps0 (fun b => m (c, b)) (not_written0 b hb0)

/-! ## The windows' arrays and the buffers behind them -/

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_pos (by decide)]
theorem share5 (c : Dev nD) : (dats m 0 c).share 5 = fullShare := by
  unfold Dat.share; rw [if_pos (by decide)]

/-- The five distinct buffers behind the six windows, one by one. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v1) ↦{fullShare} Vv main_v1) ∗ (((c : Thread nD τ).loc main_v5) ↦{fullShare} Vv main_v5)
          ∗ (((c : Thread nD τ).loc main_v6) ↦{fullShare} Vv main_v6) ∗ (((c : Thread nD τ).loc main_v7_0) ↦{fullShare} Vv main_v7_0)
          ∗ (((c : Thread nD τ).loc main_v7_1) ↦{fullShare} Vv main_v7_1)) := by
  unfold Pipeline.arrBufs
  exact bigSep_eq_bigSepL_of_eq [main_v1, main_v5, main_v6, main_v7_0, main_v7_1] (by decide) (by decide) _

/-- The six windows' arrays as the proof data holds them: the feature matrix twice, half and half. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v5) ↦{fullShare} G 2) ∗ (((c : Thread nD τ).loc main_v6) ↦{fullShare} G 3)
          ∗ (((c : Thread nD τ).loc main_v7_0) ↦{fullShare} G 4) ∗ (((c : Thread nD τ).loc main_v7_1) ↦{fullShare} G 5)) := by
  unfold Dat.arrays
  rw [bigSep_W0]
  simp only [View.set_whole, share0, share1, share2, share3, share4, share5]

/-- An input array is never written: at every position it holds what the region found in it. -/
theorem arrAt0 (c : Dev nD) (n : ℕ) : (dats m 0 c).arrAt 0 n = V m c main_v1 := ((dats m 0 c).arrAt_in 0 rfl n).trans (A_eq m c 0)
theorem arrAt1 (c : Dev nD) (n : ℕ) : (dats m 0 c).arrAt 1 n = V m c main_v1 := ((dats m 0 c).arrAt_in 1 rfl n).trans (A_eq m c 1)
theorem arrAt2 (c : Dev nD) (n : ℕ) : (dats m 0 c).arrAt 2 n = V m c main_v5 := ((dats m 0 c).arrAt_in 2 rfl n).trans (A_eq m c 2)
theorem arrAt3 (c : Dev nD) (n : ℕ) : (dats m 0 c).arrAt 3 n = V m c main_v6 := ((dats m 0 c).arrAt_in 3 rfl n).trans (A_eq m c 3)
/-- Before the first point a result array holds what the region found in it. -/
theorem arrAt4_zero (c : Dev nD) : (dats m 0 c).arrAt 4 0 = V m c main_v7_0 := A_eq m c 4
theorem arrAt5_zero (c : Dev nD) : (dats m 0 c).arrAt 5 0 = V m c main_v7_1 := A_eq m c 5

/-- ENTRY: the feature matrix's buffer, held whole, is dealt half and half to the two windows that read it; every other
    window's array is its own buffer. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq, arrAt0, arrAt1, arrAt2, arrAt3, arrAt4_zero, arrAt5_zero]
  iintro ⟨H1, H5, H6, H70, H71⟩
  ihave H := (pointsTo_share (PosShare.mem_left_op_right fullShare)).1 $$ H1
  icases H with ⟨Hl, Hr⟩
  isplitl [Hl]; · iexact Hl
  isplitl [Hr]; · iexact Hr
  isplitl [H5]; · iexact H5
  isplitl [H6]; · iexact H6
  isplitl [H70]; · iexact H70
  iexact H71

/-- EXIT: the two halves of the feature matrix's buffer, both at what the region found, are joined again; the result
    arrays come back as written. -/
theorem exit_join (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W1 m c (Proc.devRef .tc b)) := by
  rw [arrBufs0_eq, arrays0_eq, arrAt0, arrAt1, arrAt2, arrAt3]
  rw [W1_of_ne m c main_v1 (by decide) (by decide), W1_of_ne m c main_v5 (by decide) (by decide), W1_of_ne m c main_v6 (by decide) (by decide),
    W1_outS, W1_outP]
  iintro ⟨Hl, Hr, H5, H6, H70, H71⟩
  isplitl [Hl Hr]
  · iapply (pointsTo_share (PosShare.mem_left_op_right fullShare)).2
    isplitl [Hl]; · iexact Hl
    iexact Hr
  isplitl [H5]; · iexact H5
  isplitl [H6]; · iexact H6
  isplitl [H70]; · iexact H70
  iexact H71

/-- The buffers that are no window's array are the same before and after the region. -/
theorem rest_W1 (c : Dev nD) :
    (Pipeline.unscopedRest (Ix := Unit) (Name := ℕ) (U := UR sig nD τ) (Lvl := ℕ) spec0 c (fun b => W1 m c (Proc.devRef .tc b)) : sProp 𝕄)
      = Pipeline.unscopedRest spec0 c (V m c) := by
  unfold Pipeline.unscopedRest
  refine bigSep_congr fun b hb => ?_
  have hb' := (Finset.mem_sdiff.mp hb).2
  show (((c : Thread nD τ).loc b) ↦{fullShare} W1 m c (Proc.devRef .tc b) : sProp 𝕄) = _
  rw [W1_of_ne m c b (fun e => hb' (Finset.mem_image.mpr ⟨4, Finset.mem_univ _, e.symm⟩))
    (fun e => hb' (Finset.mem_image.mpr ⟨5, Finset.mem_univ _, e.symm⟩))]

/-! ## @main as three segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- Core c's buffers at launch. -/
abbrev Vm (c : Dev nD) : Valuation τ sig (Elt F) := fun b => m (c, b)

/-- What rides beside the buffers through the host lines: the generator register at some state, and that the core
    owes nothing. -/
abbrev R (c : Dev nD) : sProp 𝕄 :=
  iprop((∃ r, prngReg c r) ∗ ∃ W, owes (c : Thread nD τ) (0 : CellTallies nD τ sig Unit) W)

/-- The seven lines in front of the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (Vm m) R

/-- The eleven lines after it, from the buffers as the region leaves them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m) R

set_option backward.isDefEq.respectTransparency.types false in
/-- THE REGION. Entered from what the first seven lines left: the five buffers behind the windows go to the pipeline (the
    feature matrix's split in two), the generator register into the invariant, every other buffer past the region.
    Left with the windows' arrays at their final contents put back beside those buffers. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Ha, Hrest⟩, Hp, HO⟩, -, -⟩
    imodintro
    isplitl [Ha]; · iapply (entry_split m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin m c)
    unfold Pipeline.ΦA
    iintro ⟨Hp, -, Hr⟩
    isplitl [Hr]; · iexact Hr
    iexact Hp
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c _, rest_W1]
    iintro ⟨Ha, HO, HY, HZ⟩
    imodintro
    isplitl [Ha HZ]
    · isplitl [Ha]; · iapply (exit_join m c); iexact Ha
      iexact HZ
    isplitl [HY]; · iexact HY
    unfold Pipeline.Dat.owesAt Pipeline.owesWithin
    icases HO with ⟨%W, -, HO⟩; iexists W; iexact HO

/-- What core c's buffers hold at the end. -/
abbrev Wf (c : Dev nD) : Valuation τ sig (Elt F) := StableHlo.after hostOps1 (W1 m c)

/-- The last thread state: the unscoped buffers at what the eleven lines left, the generator register. -/
abbrev Tₙ (c : Dev nD) : sProp 𝕄 :=
  iprop(StableHlo.held (c : Thread nD τ) (Pipeline.ucRefs τ sig) (Wf m c) ∗ ∃ r, prngReg c r)

/-- A reference of @main's own is an unscoped buffer of the core. -/
theorem mem_ucRefs (b : Ref sig .tc) (hb : b.isScoped = false) : Proc.devRef .tc b ∈ Pipeline.ucRefs τ sig :=
  Finset.mem_filter.mpr ⟨StableHlo.devRef_mem_tcRefs b, fun h => Bool.false_ne_true (hb.symm.trans h)⟩

set_option backward.isDefEq.respectTransparency.types false in
/-- THE RUN: at the compiled mesh, for any values, from any memory with zero counters, every weakly fair execution of
    @main on the TensorCores terminates, nothing faulting, and in every final state the result is the host lines after
    the region applied to the two result arrays as the library computes them from the proof data, and both arguments
    are as they were. -/
theorem run_main : θ_run defs (onTc (τ := τ) (main (F := F))) ⟨m, fun _ => 0, ρ⟩ (fun r => ∀ c : Dev nD,
      r.2.mem ((c.tc : Thread nD τ).loc main_v15) = tailFn (F := F) ((dats m 0 c).arrAt 4 cfg0.N) ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj emb₁ defs₀ 𝒱₀ L lv m ρ main
    [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vm m c) ∗ R c)) (Tₙ := Tₙ m)
    (hch := ⟨fun _ => .rfl, fun _ => .rfl, fun _ => .rfl, fun c => by
      show iprop(StableHlo.held (c : Thread nD τ) (Pipeline.ucRefs τ sig) (Wf m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Vm m c) from Pipeline.unscopedBufs_held c (Vm m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v15) = tailFn (F := F) (outS m c) (outP m c)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      show iprop((StableHlo.held (c : Thread nD τ) (Pipeline.ucRefs τ sig) (Wf m c) ∗ ∃ r, prngReg c r) ∗ SI s') ⊢ _
      unfold StableHlo.held
      iintro ⟨⟨Hh, -⟩, HSI⟩
      ihave Hr := (pointsTo_read_all (Pipeline.ucRefs τ sig) (fun b => ((c : Thread nD τ).1, b)) (Wf m c) s') $$ [Hh HSI]
      · isplitl [Hh] <;> iassumption
      icases Hr with ⟨%hr, HSI⟩
      imodintro
      isplitr
      · ipureintro
        exact ⟨(hr _ (mem_ucRefs main_v15 rfl)).trans (tail_value m c),
          (hr _ (mem_ucRefs main_arg0 rfl)).trans (kept m c main_arg0 (by decide) (by decide) (by decide) (by decide)),
          (hr _ (mem_ucRefs main_arg1 rfl)).trans (kept m c main_arg1 (by decide) (by decide) (by decide) (by decide))⟩
      iexact HSI)
    (hQ := fun _ h => h)

end Cert.KernelIdeal.Hand

end
-- ==== Proof.KI.Blocks.lean ====
import proofs.«110631_j3728031613431_1_alg».proof.Proof.KI.Base
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Points, rows and blocks

Point t of the 64 is (t / 8, t % 8). Row p of its anchor block is row (t / 8) · 1024 + p of the feature matrix, row q
of its contrast block is row (t % 8) · 1024 + q; the result arrays' block (t / 8) is written back at the last point of
the row of points, t = 8 · (t / 8) + 7, from the accumulators. -/

/-- The matrix row behind row p of point t's anchor block, -/
def arow (t : Fin cfg0.N) (p : Fin 1024) : Fin 8192 :=
  ⟨(t.val / 8) * 1024 + p.val, by have h : t.val < 64 := lt_of_lt_of_eq t.isLt (show cfg0.N = 64 from N_0); have := p.isLt; omega⟩
/-- and behind row q of its contrast block. -/
def crow (t : Fin cfg0.N) (q : Fin 1024) : Fin 8192 :=
  ⟨(t.val % 8) * 1024 + q.val, by have := q.isLt; omega⟩
/-- The last point of the row of points that holds matrix row r. -/
def lastPt (r : Fin 8192) : Fin cfg0.N :=
  ⟨8 * (r.val / 1024) + 7, by have := r.isLt; exact lt_of_lt_of_eq (by omega : 8 * (r.val / 1024) + 7 < 64) (show cfg0.N = 64 from N_0).symm⟩
/-- Row r's place in its block. -/
def inBlk (r : Fin 8192) : Fin 1024 := ⟨r.val % 1024, Nat.mod_lt _ (by decide)⟩

/-- The grid point's two coordinates, decided over the 64 points. -/
theorem coords_row (t : Fin cfg0.N) : ((grid0.coords t) 0).val = t.val / 8 :=
  (by decide +kernel : ∀ t : Fin grid0.N, ((grid0.coords t) 0).val = t.val / 8) t
theorem coords_col (t : Fin cfg0.N) : ((grid0.coords t) 1).val = t.val % 8 :=
  (by decide +kernel : ∀ t : Fin grid0.N, ((grid0.coords t) 1).val = t.val % 8) t

/-- The six printed index maps in closed form, decided over the 64 points: the anchor rows, their labels and both
    results follow the row coordinate, the contrast rows and their labels the column coordinate; every other
    block index is 0. -/
theorem blockIdx : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The blocks' entries are the arrays' entries at the rows above. -/
theorem ablk_apply (c : Dev nD) (t : Fin cfg0.N) (p : Fin 1024) (k : Fin 256) :
    ablk m c t (ix2 p k) = (V m c main_v1 : S8192x256.Idx → Elt F .f32) (ix2 (arow t p) k) := by
  obtain ⟨e0, e1, -⟩ := blockIdx t
  show V m c main_v1 (((cfg0.win 0).blk t).view.emb (ix2 p k)) = V m c main_v1 (ix2 (arow t p) k)
  congr 1
  funext a; apply Fin.ext
  match a with
  | ⟨0, _⟩ => show win0_0.index t (0 : Fin 2) * 1024 + 1 * p.val = t.val / 8 * 1024 + p.val; rw [e0]; omega
  | ⟨1, _⟩ => show win0_0.index t (1 : Fin 2) * 256 + 1 * k.val = k.val; rw [e1]; omega
theorem cblk_apply (c : Dev nD) (t : Fin cfg0.N) (q : Fin 1024) (k : Fin 256) :
    cblk m c t (ix2 q k) = (V m c main_v1 : S8192x256.Idx → Elt F .f32) (ix2 (crow t q) k) := by
  obtain ⟨-, -, e0, e1, -⟩ := blockIdx t
  show V m c main_v1 (((cfg0.win 1).blk t).view.emb (ix2 q k)) = V m c main_v1 (ix2 (crow t q) k)
  congr 1
  funext a; apply Fin.ext
  match a with
  | ⟨0, _⟩ => show win0_1.index t (0 : Fin 2) * 1024 + 1 * q.val = t.val % 8 * 1024 + q.val; rw [e0]; omega
  | ⟨1, _⟩ => show win0_1.index t (1 : Fin 2) * 256 + 1 * k.val = k.val; rw [e1]; omega
theorem rlab_apply (c : Dev nD) (t : Fin cfg0.N) (p : Fin 1024) :
    rlab m c t (ix2 p (0 : Fin 1)) = (V m c main_v5 : S8192x1.Idx → Elt F .i32) (ix2 (arow t p) (0 : Fin 1)) := by
  obtain ⟨-, -, -, -, e0, e1, -⟩ := blockIdx t
  show V m c main_v5 (((cfg0.win 2).blk t).view.emb (ix2 p (0 : Fin 1))) = V m c main_v5 (ix2 (arow t p) (0 : Fin 1))
  congr 1
  funext a; apply Fin.ext
  match a with
  | ⟨0, _⟩ => show win0_2.index t (0 : Fin 2) * 1024 + 1 * p.val = t.val / 8 * 1024 + p.val; rw [e0]; omega
  | ⟨1, _⟩ => show win0_2.index t (1 : Fin 2) * 1 + 1 * 0 = 0; rw [e1]
theorem clab_apply (c : Dev nD) (t : Fin cfg0.N) (q : Fin 1024) :
    clab m c t (ix2 (0 : Fin 1) q) = (V m c main_v6 : S1x8192.Idx → Elt F .i32) (ix2 (0 : Fin 1) (crow t q)) := by
  obtain ⟨-, -, -, -, -, -, e0, e1, -⟩ := blockIdx t
  show V m c main_v6 (((cfg0.win 3).blk t).view.emb (ix2 (0 : Fin 1) q)) = V m c main_v6 (ix2 (0 : Fin 1) (crow t q))
  congr 1
  funext a; apply Fin.ext
  match a with
  | ⟨0, _⟩ => show win0_3.index t (0 : Fin 2) * 1 + 1 * 0 = 0; rw [e0]
  | ⟨1, _⟩ => show win0_3.index t (1 : Fin 2) * 1024 + 1 * q.val = t.val % 8 * 1024 + q.val; rw [e1]; omega

/-! ## The two result arrays

Only the last point of a row of points writes a result block back, and the blocks of the eight rows of points tile the
8192 rows. So after the region row r of a result holds what the accumulator held, at r's place in its block, after the
last point of r's row of points. -/

/-- The accumulators depend on the position only, not on the proof that it is a point. -/
theorem accAt_congr (c : Dev nD) {n n' : ℕ} (e : n = n') (h : n < cfg0.N) (h' : n' < cfg0.N) :
    accAt m c n h = accAt m c n' h' := by
  subst e; rfl

/-- The first result as one function of the row: the first accumulator after the last point of the row's row of points. -/
def resS (c : Dev nD) : S8192x1.Idx → Elt F .f32 := fun i =>
  (accAt m c (lastPt ⟨(i 0).val, idx2_lt0 i⟩).val (lastPt ⟨(i 0).val, idx2_lt0 i⟩).isLt).1
    (ix2 (inBlk ⟨(i 0).val, idx2_lt0 i⟩) (0 : Fin 1))
/-- The second result likewise, from the second accumulator. -/
def resP (c : Dev nD) : S8192x1.Idx → Elt F .f32 := fun i =>
  (accAt m c (lastPt ⟨(i 0).val, idx2_lt0 i⟩).val (lastPt ⟨(i 0).val, idx2_lt0 i⟩).isLt).2
    (ix2 (inBlk ⟨(i 0).val, idx2_lt0 i⟩) (0 : Fin 1))

/-- Read at a row whose last point is t and whose place in the block is j's. -/
theorem resS_apply (c : Dev nD) (i : S8192x1.Idx) (t : Fin cfg0.N) (j : S1024x1.Idx)
    (ht : t.val = 8 * ((i 0).val / 1024) + 7) (hj : (j 0).val = (i 0).val % 1024) :
    resS m c i = (accAt m c t.val t.isLt).1 j := by
  have ej : ix2 (inBlk ⟨(i 0).val, idx2_lt0 i⟩) (0 : Fin 1) = j := by
    funext a; apply Fin.ext
    match a with
    | ⟨0, _⟩ => exact hj.symm
    | ⟨1, _⟩ => have h1 : (j 1).val < 1 := idx2_lt1 j; show 0 = (j 1).val; omega
  unfold resS
  rw [ej, accAt_congr m c (show (lastPt ⟨(i 0).val, idx2_lt0 i⟩).val = t.val from ht.symm) _ t.isLt]
theorem resP_apply (c : Dev nD) (i : S8192x1.Idx) (t : Fin cfg0.N) (j : S1024x1.Idx)
    (ht : t.val = 8 * ((i 0).val / 1024) + 7) (hj : (j 0).val = (i 0).val % 1024) :
    resP m c i = (accAt m c t.val t.isLt).2 j := by
  have ej : ix2 (inBlk ⟨(i 0).val, idx2_lt0 i⟩) (0 : Fin 1) = j := by
    funext a; apply Fin.ext
    match a with
    | ⟨0, _⟩ => exact hj.symm
    | ⟨1, _⟩ => have h1 : (j 1).val < 1 := idx2_lt1 j; show 0 = (j 1).val; omega
  unfold resP
  rw [ej, accAt_congr m c (show (lastPt ⟨(i 0).val, idx2_lt0 i⟩).val = t.val from ht.symm) _ t.isLt]

/-- What a last point writes back is its block of that function. -/
theorem flushedS_eq (c : Dev nD) (t : Fin cfg0.N) (hf : (cfg0.win 4).flush t = true) :
    (dats m 0 c).flushed 4 t = ((cfg0.win 4).blk t).view.read (Elt F) (resS m c) := by
  have h7 : t.val % 8 = 7 := (flush0_4 t).mp hf
  obtain ⟨-, -, -, -, -, -, -, -, e0, e1, -⟩ := blockIdx t
  show (cfg0.win 4).cut (grid0.coords t) ((dats m 0 c).after 4 t) = _
  rw [after0_4]
  funext y
  have hy : (y 0).val < 1024 := (y 0).isLt
  show (accAt m c t.val t.isLt).1 ((cfg0.win 4).xinj (grid0.coords t) y) = resS m c (((cfg0.win 4).blk t).view.emb y)
  refine (resS_apply m c _ t _ ?_ ?_).symm
  · show t.val = 8 * ((win0_4.index t (0 : Fin 2) * 1024 + 1 * (y 0).val) / 1024) + 7
    rw [e0]; omega
  · show (y 0).val = (win0_4.index t (0 : Fin 2) * 1024 + 1 * (y 0).val) % 1024
    rw [e0]; omega
theorem flushedP_eq (c : Dev nD) (t : Fin cfg0.N) (hf : (cfg0.win 5).flush t = true) :
    (dats m 0 c).flushed 5 t = ((cfg0.win 5).blk t).view.read (Elt F) (resP m c) := by
  have h7 : t.val % 8 = 7 := (flush0_5 t).mp hf
  obtain ⟨-, -, -, -, -, -, -, -, -, -, e0, e1⟩ := blockIdx t
  show (cfg0.win 5).cut (grid0.coords t) ((dats m 0 c).after 5 t) = _
  rw [after0_5]
  funext y
  have hy : (y 0).val < 1024 := (y 0).isLt
  show (accAt m c t.val t.isLt).2 ((cfg0.win 5).xinj (grid0.coords t) y) = resP m c (((cfg0.win 5).blk t).view.emb y)
  refine (resP_apply m c _ t _ ?_ ?_).symm
  · show t.val = 8 * ((win0_5.index t (0 : Fin 2) * 1024 + 1 * (y 0).val) / 1024) + 7
    rw [e0]; omega
  · show (y 0).val = (win0_5.index t (0 : Fin 2) * 1024 + 1 * (y 0).val) % 1024
    rw [e0]; omega

/-- A row of a result array lies in point t's block iff each coordinate is in the block's range on its axis. -/
theorem mem_blkS (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v7_0).slice (win0_4.rect t)).set ↔ _
  rw [View.set_slice_whole, Rect.mem_set_unit]
  exact Iff.rfl
theorem mem_blkP (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v7_1).slice (win0_5.rect t)).set ↔ _
  rw [View.set_slice_whole, Rect.mem_set_unit]
  exact Iff.rfl

/-- Every row is in the block the last point of its row of points writes back. -/
theorem coverS (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  have hl : (lastPt ⟨(i 0).val, hi0⟩).val = 8 * ((i 0).val / 1024) + 7 := rfl
  obtain ⟨-, -, -, -, -, -, -, -, e0, e1, -⟩ := blockIdx (lastPt ⟨(i 0).val, hi0⟩)
  refine ⟨lastPt ⟨(i 0).val, hi0⟩, (flush0_4 _).mpr (by rw [hl]; omega), ?_⟩
  rw [mem_blkS]
  intro a
  match a with
  | ⟨0, _⟩ =>
    show win0_4.index (lastPt ⟨(i 0).val, hi0⟩) (0 : Fin 2) * 1024 ≤ (i 0).val ∧ (i 0).val < win0_4.index (lastPt ⟨(i 0).val, hi0⟩) (0 : Fin 2) * 1024 + 1024
    rw [e0, hl]; omega
  | ⟨1, _⟩ =>
    show win0_4.index (lastPt ⟨(i 0).val, hi0⟩) (1 : Fin 2) * 1 ≤ (i 1).val ∧ (i 1).val < win0_4.index (lastPt ⟨(i 0).val, hi0⟩) (1 : Fin 2) * 1 + 1
    rw [e1]; omega
theorem coverP (i : S8192x1.Idx) : ∃ t : Fin cfg0.N, (cfg0.win 5).flush t = true ∧ i ∈ ((cfg0.win 5).blk t).view.set := by
  have hi0 : (i 0).val < 8192 := idx2_lt0 i
  have hi1 : (i 1).val < 1 := idx2_lt1 i
  have hl : (lastPt ⟨(i 0).val, hi0⟩).val = 8 * ((i 0).val / 1024) + 7 := rfl
  obtain ⟨-, -, -, -, -, -, -, -, -, -, e0, e1⟩ := blockIdx (lastPt ⟨(i 0).val, hi0⟩)
  refine ⟨lastPt ⟨(i 0).val, hi0⟩, (flush0_5 _).mpr (by rw [hl]; omega), ?_⟩
  rw [mem_blkP]
  intro a
  match a with
  | ⟨0, _⟩ =>
    show win0_5.index (lastPt ⟨(i 0).val, hi0⟩) (0 : Fin 2) * 1024 ≤ (i 0).val ∧ (i 0).val < win0_5.index (lastPt ⟨(i 0).val, hi0⟩) (0 : Fin 2) * 1024 + 1024
    rw [e0, hl]; omega
  | ⟨1, _⟩ =>
    show win0_5.index (lastPt ⟨(i 0).val, hi0⟩) (1 : Fin 2) * 1 ≤ (i 1).val ∧ (i 1).val < win0_5.index (lastPt ⟨(i 0).val, hi0⟩) (1 : Fin 2) * 1 + 1
    rw [e1]; omega

/-- So each result array ends holding its function of the row. -/
theorem arrS_eq (c : Dev nD) : (dats m 0 c).arrAt 4 cfg0.N = resS m c :=
  (dats m 0 c).arrAt_eq_of_cover 4 (resS m c) (fun t hf => flushedS_eq m c t hf) coverS
theorem arrP_eq (c : Dev nD) : (dats m 0 c).arrAt 5 cfg0.N = resP m c :=
  (dats m 0 c).arrAt_eq_of_cover 5 (resP m c) (fun t hf => flushedP_eq m c t hf) coverP

/-- The two result arrays after the region: at row r, the accumulators as the last point of r's row of points left them. -/
theorem arr4_apply (c : Dev nD) (r : Fin 8192) :
    ((dats m 0 c).arrAt 4 cfg0.N : S8192x1.Idx → Elt F .f32) (ix2 r (0 : Fin 1))
      = (accAt m c (lastPt r).val (lastPt r).isLt).1 (ix2 (inBlk r) (0 : Fin 1)) := by
  rw [arrS_eq]; rfl
theorem arr5_apply (c : Dev nD) (r : Fin 8192) :
    ((dats m 0 c).arrAt 5 cfg0.N : S8192x1.Idx → Elt F .f32) (ix2 r (0 : Fin 1))
      = (accAt m c (lastPt r).val (lastPt r).isLt).2 (ix2 (inBlk r) (0 : Fin 1)) := by
  rw [arrP_eq]; rfl

end Cert.KernelIdeal.Hand

end
-- ==== Proof.Spec.lean ====
/-
  The supervised contrastive loss both programs compute, as plain formulas on the extended reals.

  There are 8192 rows (two views of 4096 samples, view-major: row r is view r / 4096 of sample r % 4096), each a
  vector of 256 features, and a label per sample. The similarity of rows r and q is exp (⟨x r, x q⟩ / T). For each
  row r the loss needs the ratio of "what the pairs of r's own label weigh" to "what all pairs weigh", the pair
  (r, r) left out; the loss is minus the mean over the rows of the ratio's logarithm.

  The kernel's form of the ratio: S r is the sum of the similarities over q ≠ r, P r the same sum over the q ≠ r of
  r's label, and the ratio is (P r + ε · S r) / S r.
  The reference's form: every pair (r, q) gets the weight ((labels equal ? 1 : 0) + ε) · (1 − (r = q ? 1 : 0)) and
  the complementary weight (1 − ((labels equal ? 1 : 0) + ε)) · (1 − (r = q ? 1 : 0)); pos and neg are the sums of
  the similarities under the two weights, and the ratio is pos / (pos + neg).
-/
import Idealize.ShloMosaic.PureOps.Ideal
import Idealize.ShloMosaic.Lib.ValueIdx

noncomputable section

namespace Cert.Loss

open Idealize.ShloMosaic

/-- The shapes of the two arguments. -/
abbrev SFeat : Shape := ⟨3, ![4096, 2, 256]⟩
abbrev SLab : Shape := ⟨1, ![4096]⟩

/-- ε = f32 1e-7, the temperature T = f32 0.07 and the row count 8192, as the words the programs carry. -/
def eps : EReal := Ideal.ofBits .f32 0x33D6BF95#32
def temp : EReal := Ideal.ofBits .f32 0x3D8F5C29#32
def nrows : EReal := Ideal.ofBits .f32 0x46000000#32

/-- Row r of the stacked views: view r / 4096 of sample r % 4096. -/
def featRow (a0 : SFeat.Idx → EReal) (r : Fin 8192) (k : Fin 256) : EReal :=
  a0 (ValueIdx.ix3 (⟨r.val % 4096, Nat.mod_lt _ (by decide)⟩ : Fin 4096) (⟨r.val / 4096, by have := r.isLt; omega⟩ : Fin 2) k)
/-- Its label: the sample's. -/
def labRow (a1 : SLab.Idx → BitVec 32) (r : Fin 8192) : BitVec 32 :=
  a1 (ValueIdx.ix1 (⟨r.val % 4096, Nat.mod_lt _ (by decide)⟩ : Fin 4096))

section
variable (x : Fin 8192 → Fin 256 → EReal) (lab : Fin 8192 → BitVec 32)

/-- The inner product of two rows, and their similarity. -/
def dotp (r q : Fin 8192) : EReal := ∑ k : Fin 256, x r k * x q k
def sim (r q : Fin 8192) : EReal := Ideal.exp (Ideal.div (dotp x r q) temp)

/-! ### The kernel's form -/

def sumS (r : Fin 8192) : EReal := ∑ q : Fin 8192, if r = q then 0 else sim x r q
def sumP (r : Fin 8192) : EReal := ∑ q : Fin 8192, if lab r = lab q ∧ r ≠ q then sim x r q else 0
def ratioK (r : Fin 8192) : EReal := Ideal.div (sumP x lab r + eps * sumS x r) (sumS x r)

/-! ### The reference's form -/

def wpos (r q : Fin 8192) : EReal := ((if lab r = lab q then 1 else 0) + eps) * (1 - (if r = q then 1 else 0))
def wneg (r q : Fin 8192) : EReal := (1 - ((if lab r = lab q then 1 else 0) + eps)) * (1 - (if r = q then 1 else 0))
def pos (r : Fin 8192) : EReal := ∑ q : Fin 8192, sim x r q * wpos lab r q
def neg (r : Fin 8192) : EReal := ∑ q : Fin 8192, sim x r q * wneg lab r q
def ratioR (r : Fin 8192) : EReal := Ideal.div (pos x lab r) (pos x lab r + neg x lab r)

end

/-- Minus the mean of the logarithms of the rows' ratios. -/
def loss (ratio : Fin 8192 → EReal) : EReal := -(Ideal.div (∑ r : Fin 8192, Ideal.log (ratio r)) nrows)

end Cert.Loss

end
-- ==== Proof.KI.Payload.lean ====
import proofs.«110631_j3728031613431_1_alg».proof.Proof.Gen.KernelIdeal.Skeleton
import proofs.«110631_j3728031613431_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The body's payloads at an index, on the extended reals -/

/-- The similarity of row p of an anchor block and row q of a contrast block. -/
def simBlk (A C : Vec Ideal S1024x256 .f32) (p q : Fin 1024) : EReal :=
  Ideal.exp (Ideal.div (∑ k : Fin 256, A (ix2 p k) * C (ix2 q k)) Cert.Loss.temp)

/-- The two zero fills. -/
theorem pay3_apply (p : Fin 1024) : (k0_pay3 (F := Ideal)) (ix2 p (0 : Fin 1)) = (0 : EReal) := by
  unfold k0_pay3
  rw [shapeCast_self]
  exact Ideal.ofBits_zero_f32
theorem pay4_apply (p : Fin 1024) : (k0_pay4 (F := Ideal)) (ix2 p (0 : Fin 1)) = (0 : EReal) := by
  unfold k0_pay4
  rw [shapeCast_self]
  exact Ideal.ofBits_zero_f32

/-! ### The product of the two blocks -/

theorem dot_lhs_0 (j : S1024x1024.Idx) (c : dot_S1024x256_S256x1024_S1024x1024_1_0_0_1_n_n.contr.Idx) :
    (dot_S1024x256_S256x1024_S1024x1024_1_0_0_1_n_n.lhsIdx j c 0).val = (j 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem dot_lhs_1 (j : S1024x1024.Idx) (c : dot_S1024x256_S256x1024_S1024x1024_1_0_0_1_n_n.contr.Idx) :
    (dot_S1024x256_S256x1024_S1024x1024_1_0_0_1_n_n.lhsIdx j c 1).val = (c ⟨0, by decide⟩).val :=
  dot_S1024x256_S256x1024_S1024x1024_1_0_0_1_n_n.lhsIdx_val_of_single rfl j c
theorem dot_rhs_0 (j : S1024x1024.Idx) (c : dot_S1024x256_S256x1024_S1024x1024_1_0_0_1_n_n.contr.Idx) :
    (dot_S1024x256_S256x1024_S1024x1024_1_0_0_1_n_n.rhsIdx j c 0).val = (c ⟨0, by decide⟩).val :=
  dot_S1024x256_S256x1024_S1024x1024_1_0_0_1_n_n.rhsIdx_val_of_single rfl j c
theorem dot_rhs_1 (j : S1024x1024.Idx) (c : dot_S1024x256_S256x1024_S1024x1024_1_0_0_1_n_n.contr.Idx) :
    (dot_S1024x256_S256x1024_S1024x1024_1_0_0_1_n_n.rhsIdx j c 1).val = (j 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The matrix product into a zero accumulator, entry (p, q): the sum over the 256 shared coordinates. -/
theorem matmul_blk_apply (L : FVec Ideal S1024x256 .f32) (R : FVec Ideal S256x1024 .f32) (p q : Fin 1024) :
    matmul (F := Ideal) dot_S1024x256_S256x1024_S1024x1024_1_0_0_1_n_n none L R
        (constant (F := Ideal) S1024x1024 .f32 0x00000000#32) (ix2 p q)
      = ∑ k : Fin 256, L (ix2 p k) * R (ix2 k q) := by
  simp only [matmul]
  rw [Ideal.matmul_constant_zero_apply,
    ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q)
      ((contrEquiv1 dot_S1024x256_S256x1024_S1024x1024_1_0_0_1_n_n 256 rfl rfl).symm k) = ix2 p k :=
    funext fun a => Fin.ext (by
      match a with
      | ⟨0, _⟩ => exact dot_lhs_0 _ _
      | ⟨1, _⟩ => exact (dot_lhs_1 _ _).trans hk)
  have er : dot_S1024x256_S256x1024_S1024x1024_1_0_0_1_n_n.rhsIdx (ix2 p q)
      ((contrEquiv1 dot_S1024x256_S256x1024_S1024x1024_1_0_0_1_n_n 256 rfl rfl).symm k) = ix2 k q :=
    funext fun a => Fin.ext (by
      match a with
      | ⟨0, _⟩ => exact (dot_rhs_0 _ _).trans hk
      | ⟨1, _⟩ => exact dot_rhs_1 _ _)
  rw [el, er]

/-- The exponentiated, temperature-scaled product of the two blocks, entry (p, q): the similarity of the two rows. -/
theorem pay5_apply (A C : Vec Ideal S1024x256 .f32) (p q : Fin 1024) :
    k0_pay5 (F := Ideal) A C (ix2 p q) = simBlk A C p q := by
  unfold k0_pay5 simBlk
  rw [shapeCast_self, shapeCast_self]
  show Ideal.exp (Ideal.div (matmul (F := Ideal) dot_S1024x256_S256x1024_S1024x1024_1_0_0_1_n_n none A
      (transpose S256x1024 [1, 0] C transposes_S1024x256_p1_0_S256x1024)
      (constant (F := Ideal) S1024x1024 .f32 0x00000000#32) (ix2 p q)) (Ideal.ofBits .f32 0x3D8F5C29#32)) = _
  rw [matmul_blk_apply]
  have ht : ∀ k : Fin 256, transpose S256x1024 [1, 0] C transposes_S1024x256_p1_0_S256x1024 (ix2 k q) = C (ix2 q k) :=
    fun k => transpose_ix2_apply C transposes_S1024x256_p1_0_S256x1024 k q
  simp only [ht]
  rfl

/-! ### The diagonal mask -/

/-- Row and column numbers below 2^13 are equal as 32-bit words exactly when they are equal as numbers. -/
theorem word_eq_iff (a b p q : Nat) (ha : a < 8) (hb : b < 8) (hp : p < 1024) (hq : q < 1024) :
    (IntOp.addi (Scalar.muli (BitVec.ofNat 32 a) 1024#32) (BitVec.ofNat 32 p)
        = IntOp.addi (Scalar.muli (BitVec.ofNat 32 b) 1024#32) (BitVec.ofNat 32 q))
      ↔ a * 1024 + p = b * 1024 + q := by
  unfold IntOp.addi Scalar.muli IntOp.muli
  rw [← BitVec.toNat_inj]
  simp only [BitVec.toNat_add, BitVec.toNat_mul, BitVec.toNat_ofNat]
  omega

/-- "Equal", negated by an exclusive-or with the set bit: cleared on equal words, set on different ones. -/
theorem not_cmpi_eq (x y : BitVec 32) : IntOp.xori (IntOp.cmpi .eq x y) 1#1 = if x = y then 0#1 else 1#1 := by
  unfold IntOp.xori IntOp.cmpi
  by_cases h : x = y
  · subst h; simp
  · have hb : (x == y) = false := beq_eq_false_iff_ne.2 h
    rw [if_neg h]; simp [hb]

/-- The mask's entry (p, q) at grid point i: cleared exactly on the pair of one and the same matrix row. -/
theorem pay6_apply (i : grid0.Coords) (p q : Fin 1024) :
    k0_pay6 i (ix2 p q) = if (i 0).val * 1024 + p.val = (i 1).val * 1024 + q.val then 0#1 else 1#1 := by
  have h0 : (i 0).val < 8 := (i 0).isLt
  have h1 : (i 1).val < 8 := (i 1).isLt
  unfold k0_pay6
  show IntOp.xori (IntOp.cmpi .eq
      (IntOp.addi (Scalar.muli (BitVec.ofNat 32 (i 0).val) 1024#32)
        (iota .tc S1024x1024 32 [0] iota_S1024x1024_d0_w32 (ix2 p q)))
      (IntOp.addi (Scalar.muli (BitVec.ofNat 32 (i 1).val) 1024#32)
        (iota .tc S1024x1024 32 [1] iota_S1024x1024_d1_w32 (ix2 p q)))) 1#1 = _
  rw [iota_single_apply, iota_single_apply, not_cmpi_eq]
  show (if IntOp.addi (Scalar.muli (BitVec.ofNat 32 (i 0).val) 1024#32) (BitVec.ofNat 32 p.val)
      = IntOp.addi (Scalar.muli (BitVec.ofNat 32 (i 1).val) 1024#32) (BitVec.ofNat 32 q.val) then 0#1 else 1#1) = _
  by_cases h : (i 0).val * 1024 + p.val = (i 1).val * 1024 + q.val
  · rw [if_pos h, if_pos ((word_eq_iff _ _ _ _ h0 h1 p.isLt q.isLt).2 h)]
  · rw [if_neg h, if_neg (mt (word_eq_iff _ _ _ _ h0 h1 p.isLt q.isLt).1 h)]

/-! ### The lane sum, kept as a column -/

/-- A vector of 1024 entries viewed as a column: entry (p, 0) is entry p. -/
theorem col_of_vec_apply {α : Type} (v : S1024.Idx → α) (p : Fin 1024) :
    shapeCast S1024x1 v shapeCasts_S1024_S1024x1 (ix2 p (0 : Fin 1)) = v (ix1 p) :=
  shapeCast_apply v shapeCasts_S1024_S1024x1 _ _ (by
    rw [Shape.rowMajor_val_one, Shape.rowMajor_val_two]
    show p.val = p.val * 1 + 0
    omega)

/-- Summing a 1024 × 1024 matrix along its rows and keeping the result as a column: entry (p, 0) is the sum of row p. -/
theorem rowsum_apply (X : FVec Ideal S1024x1024 .f32) (p : Fin 1024) :
    shapeCast S1024x1 (multiReduction (F := Ideal) .add [1] S1024 X 0x00000000#32 reduces_S1024x1024_S1024 (.inl rfl) rfl)
        shapeCasts_S1024_S1024x1 (ix2 p (0 : Fin 1))
      = ∑ q : Fin 1024, X (ix2 p q) := by
  rw [col_of_vec_apply]
  refine (Ideal.multiReduction_add_single X 0x00000000#32 reduces_S1024x1024_S1024 (.inl rfl) rfl (ix1 p)).trans ?_
  refine Finset.sum_congr rfl fun q _ => congrArg X ?_
  funext a
  match a with
  | ⟨0, _⟩ => rfl
  | ⟨1, _⟩ => rfl

/-! ### The label columns and rows spread over the matrix -/

/-- A column spread over 1024 columns: entry (p, q) is the column's entry p. -/
theorem bcast_col_apply {α : Type} (v : S1024x1.Idx → α) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ => rfl
  | ⟨1, _⟩ => rfl

/-- The label test's entry (p, q): set exactly when the anchor row's label is the contrast row's. -/
theorem lab_eq_apply (LR : Vec Ideal S1024x1 .i32) (LC : Vec Ideal S1x1024 .i32) (p q : Fin 1024) :
    cmpi .eq (broadcastTo S1024x1024 (shapeCast S1024x1 LR shapeCasts_S1024x1_S1024x1) broadcasts_S1024x1_S1024x1024)
        (broadcastTo S1024x1024 (shapeCast S1x1024 LC shapeCasts_S1x1024_S1x1024) broadcasts_S1x1024_S1024x1024) (ix2 p q)
      = if (LR (ix2 p (0 : Fin 1)) : BitVec 32) = (LC (ix2 (0 : Fin 1) q) : BitVec 32) then 1#1 else 0#1 := by
  rw [shapeCast_self, shapeCast_self]
  show IntOp.cmpi .eq (broadcastTo S1024x1024 LR broadcasts_S1024x1_S1024x1024 (ix2 p q))
      (broadcastTo S1024x1024 LC broadcasts_S1x1024_S1024x1024 (ix2 p q)) = _
  rw [bcast_col_apply, broadcastTo_1b_ab_apply]
  unfold IntOp.cmpi
  by_cases h : (LR (ix2 p (0 : Fin 1)) : BitVec 32) = (LC (ix2 (0 : Fin 1) q) : BitVec 32)
  · rw [if_pos h]; simp [h]
  · have hb : ((LR (ix2 p (0 : Fin 1)) : BitVec 32) == (LC (ix2 (0 : Fin 1) q) : BitVec 32)) = false := beq_eq_false_iff_ne.2 h
    rw [if_neg h]; simp [hb]

/-! ### The two masked matrices and the accumulators' updates -/

/-- A selection on the conjunction of a set-when-c bit and a cleared-when-d bit. -/
theorem select_andi_bits {α : Type} (c d : Prop) [Decidable c] [Decidable d] (a b : α) :
    Scalar.select (IntOp.andi (if c then 1#1 else 0#1) (if d then 0#1 else 1#1)) a b = if c ∧ ¬d then a else b := by
  unfold Scalar.select IntOp.andi
  by_cases hc : c <;> by_cases hd : d <;> simp [hc, hd]

/-- The similarities off the diagonal, entry (p, q). -/
theorem offdiag_apply (i : grid0.Coords) (A C : Vec Ideal S1024x256 .f32) (p q : Fin 1024) :
    select (k0_pay6 i) (k0_pay5 (F := Ideal) A C) (broadcast S1024x1024 (Scalar.ofBits (F := Ideal) .f32 0x00000000#32)) (ix2 p q)
      = if (i 0).val * 1024 + p.val = (i 1).val * 1024 + q.val then (0 : EReal) else simBlk A C p q := by
  rw [select_apply, pay6_apply, pay5_apply]
  show Scalar.select _ (simBlk A C p q) (Ideal.ofBits .f32 0x00000000#32) = _
  rw [Ideal.ofBits_zero_f32]
  by_cases h : (i 0).val * 1024 + p.val = (i 1).val * 1024 + q.val
  · rw [if_pos h, if_pos h, select_zero]
  · rw [if_neg h, if_neg h, select_one]

/-- The row sums of the similarities off the diagonal, kept as a column. -/
theorem pay8_apply (i : grid0.Coords) (A C : Vec Ideal S1024x256 .f32) (p : Fin 1024) :
    k0_pay8 (F := Ideal) i A C (ix2 p (0 : Fin 1))
      = ∑ q : Fin 1024, if (i 0).val * 1024 + p.val = (i 1).val * 1024 + q.val then (0 : EReal) else simBlk A C p q := by
  unfold k0_pay8
  refine (rowsum_apply _ p).trans ?_
  exact Finset.sum_congr rfl fun q _ => offdiag_apply i A C p q

/-- The first accumulator's update at grid point i: what it held plus, over the block's contrast rows, the
    similarities off the diagonal (the pair of one and the same matrix row left out). -/
theorem pay1_apply (i : grid0.Coords) (prev : Vec Ideal S1024x1 .f32) (A C : Vec Ideal S1024x256 .f32) (p : Fin 1024) :
    k0_pay1 (F := Ideal) prev (k0_pay8 i A C) (ix2 p (0 : Fin 1))
      = (prev (ix2 p (0 : Fin 1)) : EReal) + ∑ q : Fin 1024, if (i 0).val * 1024 + p.val = (i 1).val * 1024 + q.val then (0 : EReal) else simBlk A C p q := by
  unfold k0_pay1
  rw [shapeCast_self]
  show (prev (ix2 p (0 : Fin 1)) : EReal) + k0_pay8 (F := Ideal) i A C (ix2 p (0 : Fin 1)) = _
  rw [pay8_apply]

/-- The similarities kept to equal labels and off the diagonal, entry (p, q). -/
theorem pay7_apply (i : grid0.Coords) (A C : Vec Ideal S1024x256 .f32) (LR : Vec Ideal S1024x1 .i32) (LC : Vec Ideal S1x1024 .i32)
    (p q : Fin 1024) :
    k0_pay7 (F := Ideal) i A C LR LC (ix2 p q)
      = if (LR (ix2 p (0 : Fin 1)) : BitVec 32) = (LC (ix2 (0 : Fin 1) q) : BitVec 32) ∧ (i 0).val * 1024 + p.val ≠ (i 1).val * 1024 + q.val
          then simBlk A C p q else (0 : EReal) := by
  unfold k0_pay7
  show Scalar.select (IntOp.andi
      (cmpi .eq (broadcastTo S1024x1024 (shapeCast S1024x1 LR shapeCasts_S1024x1_S1024x1) broadcasts_S1024x1_S1024x1024)
        (broadcastTo S1024x1024 (shapeCast S1x1024 LC shapeCasts_S1x1024_S1x1024) broadcasts_S1x1024_S1024x1024) (ix2 p q))
      (k0_pay6 i (ix2 p q))) (k0_pay5 (F := Ideal) A C (ix2 p q)) (Ideal.ofBits .f32 0x00000000#32) = _
  rw [lab_eq_apply, pay6_apply, pay5_apply, Ideal.ofBits_zero_f32, select_andi_bits]

/-- The second accumulator's update: the same sum kept to the contrast rows of the anchor row's label. -/
theorem pay2_apply (i : grid0.Coords) (prev : Vec Ideal S1024x1 .f32) (A C : Vec Ideal S1024x256 .f32)
    (LR : Vec Ideal S1024x1 .i32) (LC : Vec Ideal S1x1024 .i32) (p : Fin 1024) :
    k0_pay2 (F := Ideal) (k0_pay7 i A C LR LC) prev (ix2 p (0 : Fin 1))
      = (prev (ix2 p (0 : Fin 1)) : EReal) + ∑ q : Fin 1024,
          if (LR (ix2 p (0 : Fin 1)) : BitVec 32) = (LC (ix2 (0 : Fin 1) q) : BitVec 32) ∧ (i 0).val * 1024 + p.val ≠ (i 1).val * 1024 + q.val then simBlk A C p q else (0 : EReal) := by
  unfold k0_pay2
  rw [shapeCast_self]
  refine congrArg ((prev (ix2 p (0 : Fin 1)) : EReal) + ·) ((rowsum_apply _ p).trans ?_)
  exact Finset.sum_congr rfl fun q _ => pay7_apply i A C LR LC p q

end Cert.KernelIdeal.Hand

end
-- ==== Proof.KI.Host.lean ====
import proofs.«110631_j3728031613431_1_alg».proof.Proof.KI.Base
import proofs.«110631_j3728031613431_1_alg».proof.Proof.Spec
import Idealize.ShloMosaic.Lib.ValueIdx
import Idealize.ShloMosaic.Lib.ValueLayout
import Idealize.ShloMosaic.Lib.ReduceAll
import Idealize.ShloMosaic.Lib.Pipeline.Value
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The host lines around the region, at an index, on the extended reals -/

/-- The feature matrix as the region finds it: the argument with its first two axes exchanged, then its two leading
    axes merged into one of 8192 rows. -/
theorem V1_term (c : Dev nD) :
    (V m c main_v1 : S8192x256.Idx → EReal)
      = shapeCast S8192x256 (transpose S2x4096x256 [1, 0, 2] (m ((c.tc : Thread nD τ).loc main_arg0)) transposes_S4096x2x256_S2x4096x256_1_0_2) shapeCasts_S2x4096x256_S8192x256 := by
  dsimp only [V, V0]; after_results; rfl

/-- The flat label vector of 8192 entries: the 4096 labels repeated once per view, the two copies laid end to end. -/
theorem V4_term (c : Dev nD) :
    (V m c main_v4 : S8192.Idx → BitVec 32)
      = shapeCast S8192 (broadcastInDim S2x4096 ![0, 1] bcast_S1x4096_S2x4096_0_1 (shapeCast S1x4096 (m ((c.tc : Thread nD τ).loc main_arg1)) shapeCasts_S4096_S1x4096)) shapeCasts_S2x4096_S8192 := by
  dsimp only [V, V0]; after_results; rfl

/-- The label column is the flat label vector with a unit axis appended. -/
theorem V5_term (c : Dev nD) :
    (V m c main_v5 : S8192x1.Idx → BitVec 32)
      = shapeCast S8192x1 (shapeCast S8192 (broadcastInDim S2x4096 ![0, 1] bcast_S1x4096_S2x4096_0_1 (shapeCast S1x4096 (m ((c.tc : Thread nD τ).loc main_arg1)) shapeCasts_S4096_S1x4096)) shapeCasts_S2x4096_S8192) shapeCasts_S8192_S8192x1 := by
  dsimp only [V, V0]; after_results; rfl

/-- The label row is the flat label vector with a unit axis put in front. -/
theorem V6_term (c : Dev nD) :
    (V m c main_v6 : S1x8192.Idx → BitVec 32)
      = shapeCast S1x8192 (shapeCast S8192 (broadcastInDim S2x4096 ![0, 1] bcast_S1x4096_S2x4096_0_1 (shapeCast S1x4096 (m ((c.tc : Thread nD τ).loc main_arg1)) shapeCasts_S4096_S1x4096)) shapeCasts_S2x4096_S8192) shapeCasts_S8192_S1x8192 := by
  dsimp only [V, V0]; after_results; rfl

/-- The feature matrix the region reads is the two views stacked: row r is view r / 4096 of sample r % 4096. -/
theorem V1_apply (c : Dev nD) (r : Fin 8192) (k : Fin 256) :
    (V m c main_v1 : S8192x256.Idx → EReal) (ix2 r k) = Cert.Loss.featRow (m ((c.tc : Thread nD τ).loc main_arg0)) r k := by
  refine (congrFun (V1_term m c) (ix2 r k)).trans ?_
  -- position r · 256 + k of the merged array is position ((r / 4096) · 4096 + r % 4096) · 256 + k of the unmerged one
  refine (shapeCast_apply _ shapeCasts_S2x4096x256_S8192x256 (ix2 r k)
    (ix3 (⟨r.val / 4096, by have := r.isLt; omega⟩ : Fin 2) (⟨r.val % 4096, Nat.mod_lt _ (by decide)⟩ : Fin 4096) k) ?_).trans ?_
  · rw [Shape.rowMajor_val_three, Shape.rowMajor_val_two]
    show ((r.val / 4096) * 4096 + r.val % 4096) * 256 + k.val = r.val * 256 + k.val
    omega
  -- and the exchange of the first two axes reads (view, sample, k) at (sample, view, k)
  · refine (transpose_apply _ _ transposes_S4096x2x256_S2x4096x256_1_0_2 _
      (ix3 (⟨r.val % 4096, Nat.mod_lt _ (by decide)⟩ : Fin 4096) (⟨r.val / 4096, by have := r.isLt; omega⟩ : Fin 2) k)
      (fun b => match b with | ⟨0, _⟩ => rfl | ⟨1, _⟩ => rfl | ⟨2, _⟩ => rfl)).trans ?_
    rfl

/-- Entry r of the flat label vector is the label of sample r % 4096: entry r sits at (r / 4096, r % 4096) of the
    two stacked copies, and a copy does not depend on its number. -/
theorem V4_apply (c : Dev nD) (r : Fin 8192) :
    (V m c main_v4 : S8192.Idx → BitVec 32) (ix1 r) = Cert.Loss.labRow (m ((c.tc : Thread nD τ).loc main_arg1)) r := by
  refine (congrFun (V4_term m c) (ix1 r)).trans ?_
  refine (shapeCast_apply _ shapeCasts_S2x4096_S8192 (ix1 r)
    (ix2 (⟨r.val / 4096, by have := r.isLt; omega⟩ : Fin 2) (⟨r.val % 4096, Nat.mod_lt _ (by decide)⟩ : Fin 4096)) ?_).trans ?_
  · rw [Shape.rowMajor_val_two, Shape.rowMajor_val_one]
    show (r.val / 4096) * 4096 + r.val % 4096 = r.val
    omega
  · refine (broadcastInDim_apply _ bcast_S1x4096_S2x4096_0_1 _ _
      (ix2 (0 : Fin 1) (⟨r.val % 4096, Nat.mod_lt _ (by decide)⟩ : Fin 4096))
      (fun a => match a with | ⟨0, _⟩ => rfl | ⟨1, _⟩ => rfl)).trans ?_
    refine (shapeCast_a_1a_apply _ shapeCasts_S4096_S1x4096 (0 : Fin 1) _).trans ?_
    rfl

/-- The labels as a column and as a row: row r's label is its sample's. -/
theorem V5_apply (c : Dev nD) (r : Fin 8192) :
    (V m c main_v5 : S8192x1.Idx → BitVec 32) (ix2 r (0 : Fin 1)) = Cert.Loss.labRow (m ((c.tc : Thread nD τ).loc main_arg1)) r := by
  refine (congrFun (V5_term m c) (ix2 r (0 : Fin 1))).trans ?_
  refine (shapeCast_apply _ shapeCasts_S8192_S8192x1 (ix2 r (0 : Fin 1)) (ix1 r) ?_).trans ?_
  · rw [Shape.rowMajor_val_two, Shape.rowMajor_val_one]
    show r.val = r.val * 1 + 0
    omega
  · exact (congrFun (V4_term m c) (ix1 r)).symm.trans (V4_apply m c r)
theorem V6_apply (c : Dev nD) (r : Fin 8192) :
    (V m c main_v6 : S1x8192.Idx → BitVec 32) (ix2 (0 : Fin 1) r) = Cert.Loss.labRow (m ((c.tc : Thread nD τ).loc main_arg1)) r := by
  refine (congrFun (V6_term m c) (ix2 (0 : Fin 1) r)).trans ?_
  refine (shapeCast_a_1a_apply _ shapeCasts_S8192_S1x8192 (0 : Fin 1) r).trans ?_
  exact (congrFun (V4_term m c) (ix1 r)).symm.trans (V4_apply m c r)

/-- A sum over all entries of a column of 8192 is the sum over its rows: the second coordinate takes one value. -/
theorem sum_col {M : Type*} [AddCommMonoid M] (f : S8192x1.Idx → M) :
    ∑ i, f i = ∑ r : Fin 8192, f (ix2 r (0 : Fin 1)) := by
  rw [sum_idx2]
  exact Finset.sum_congr rfl (fun r _ => Fin.sum_univ_one _)

/-- The lines after the region: minus the mean over the rows of log ((P + ε · S) / S). -/
theorem tail_apply (S P : FVec Ideal S8192x1 .f32) :
    tailFn (F := Ideal) S P = fun _ => Cert.Loss.loss (fun r => Ideal.div ((P (ix2 r (0 : Fin 1)) : EReal) + Cert.Loss.eps * (S (ix2 r (0 : Fin 1)) : EReal)) (S (ix2 r (0 : Fin 1)) : EReal)) := by
  funext j
  unfold tailFn Cert.Loss.loss Cert.Loss.eps Cert.Loss.nrows
  -- entry by entry the elementwise lines are the formula; what is left is the sum over both axes from the zero word
  show -(Ideal.div (Ideal.hostReduceAdd reducesTo_S8192x1_S_d0_1
      (fun i => Ideal.log (Ideal.div ((P i : EReal) + Ideal.ofBits .f32 0x33D6BF95#32 * (S i : EReal)) (S i : EReal)))
      (Ideal.ofBits .f32 0x00000000#32) j) (Ideal.ofBits .f32 0x46000000#32)) = _
  -- which is 0 plus the sum over every entry, that is over the rows
  rw [Ideal.hostReduceAdd_total reducesTo_S8192x1_S_d0_1 (fun b => b.elim0), Ideal.ofBits_zero_f32, zero_add, sum_col]

end Cert.KernelIdeal.Hand

end
-- ==== Proof.KI.Value.lean ====
import proofs.«110631_j3728031613431_1_alg».proof.Proof.KI.Blocks
import proofs.«110631_j3728031613431_1_alg».proof.Proof.KI.Payload
import proofs.«110631_j3728031613431_1_alg».proof.Proof.KI.Host
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The kernel program's result is the loss in the kernel's form

Along a row of points the first accumulator gathers, block of columns after block of columns, the similarities of
its anchor rows with every other row; at the row's last point it has met all 8192 columns once, and the sum over
the eight blocks of 1024 is the sum over all columns. The same for the second accumulator, kept to the columns of
the anchor row's label. The host lines after the region turn the two columns into the loss. -/

variable (c : Dev nD)

/-- The rows and the labels the two arguments hold. -/
abbrev xOf : Fin 8192 → Fin 256 → EReal := Cert.Loss.featRow (m ((c.tc : Thread nD τ).loc main_arg0))
abbrev labOf : Fin 8192 → BitVec 32 := Cert.Loss.labRow (m ((c.tc : Thread nD τ).loc main_arg1))

/-- Column q of the j-th block of 1024 columns. -/
def colOf (j : ℕ) (q : Fin 1024) : Fin 8192 :=
  ⟨(j % 8) * 1024 + q.val, by have := q.isLt; have := Nat.mod_lt j (by decide : 0 < 8); omega⟩

theorem crow_eq (t : Fin cfg0.N) (q : Fin 1024) : crow t q = colOf (t.val % 8) q := by
  apply Fin.ext; simp only [crow, colOf, Nat.mod_mod]

/-- Eight blocks of 1024 columns are all 8192 columns. -/
theorem sum_blocks (f : Fin 8192 → EReal) :
    ∑ j ∈ Finset.range 8, ∑ q : Fin 1024, f (colOf j q) = ∑ col : Fin 8192, f col := by
  rw [← Fin.sum_univ_eq_sum_range (fun j => ∑ q : Fin 1024, f (colOf j q)) 8]
  rw [← Fintype.sum_prod_type' (f := fun (a : Fin 8) (q : Fin 1024) => f (colOf a.val q))]
  refine Fintype.sum_equiv (finProdFinEquiv : Fin 8 × Fin 1024 ≃ Fin (8 * 1024)) _ _ (fun x => congrArg f (Fin.ext ?_))
  have h1 := x.1.isLt; have h2 := x.2.isLt
  simp only [colOf, finProdFinEquiv_apply_val]
  omega

/-- A block pair's similarity is the similarity of the two matrix rows behind it. -/
theorem simBlk_eq (t : Fin cfg0.N) (p q : Fin 1024) :
    simBlk (ablk m c t) (cblk m c t) p q = Cert.Loss.sim (xOf m c) (arow t p) (crow t q) := by
  unfold simBlk Cert.Loss.sim Cert.Loss.dotp
  simp only [ablk_apply (F := Ideal) m c t p, cblk_apply (F := Ideal) m c t q, V1_apply m c]

/-- The diagonal test on the words is the equality of the two matrix rows. -/
theorem diag_iff (t : Fin cfg0.N) (p q : Fin 1024) :
    ((grid0.coords t) 0).val * 1024 + p.val = ((grid0.coords t) 1).val * 1024 + q.val ↔ arow t p = crow t q := by
  rw [coords_row, coords_col, Fin.ext_iff]; rfl

/-- What point t adds to the first accumulator at anchor row p, -/
def sAdd (t : Fin cfg0.N) (p : Fin 1024) (j : ℕ) : EReal :=
  ∑ q : Fin 1024, if arow t p = colOf j q then (0 : EReal) else Cert.Loss.sim (xOf m c) (arow t p) (colOf j q)
/-- and to the second. -/
def pAdd (t : Fin cfg0.N) (p : Fin 1024) (j : ℕ) : EReal :=
  ∑ q : Fin 1024, if labOf m c (arow t p) = labOf m c (colOf j q) ∧ arow t p ≠ colOf j q then Cert.Loss.sim (xOf m c) (arow t p) (colOf j q) else (0 : EReal)

theorem sTerm_apply (t : Fin cfg0.N) (prev : Vec Ideal S1024x1 .f32) (p : Fin 1024) :
    k0_pay1 (F := Ideal) prev (sTerm m c t) (ix2 p (0 : Fin 1)) = (prev (ix2 p (0 : Fin 1)) : EReal) + sAdd m c t p (t.val % 8) := by
  unfold sTerm sAdd
  rw [pay1_apply]
  congr 1
  refine Finset.sum_congr rfl fun q _ => ?_
  rw [simBlk_eq, ← crow_eq]
  exact if_congr (diag_iff t p q) rfl rfl

theorem pMat_apply (t : Fin cfg0.N) (prev : Vec Ideal S1024x1 .f32) (p : Fin 1024) :
    k0_pay2 (F := Ideal) (pMat m c t) prev (ix2 p (0 : Fin 1)) = (prev (ix2 p (0 : Fin 1)) : EReal) + pAdd m c t p (t.val % 8) := by
  unfold pMat pAdd
  rw [pay2_apply]
  congr 1
  refine Finset.sum_congr rfl fun q _ => ?_
  rw [simBlk_eq, ← crow_eq, rlab_apply (F := Ideal) m c t p, clab_apply (F := Ideal) m c t q, V5_apply m c, V6_apply m c]
  exact if_congr (and_congr Iff.rfl (not_congr (diag_iff t p q))) rfl rfl

/-- Within a row of points the anchor rows do not move. -/
theorem arow_pred (n : ℕ) (hn : n + 1 < cfg0.N) (h0 : ¬(n + 1) % 8 = 0) (p : Fin 1024) :
    arow ⟨n + 1, hn⟩ p = arow ⟨n, Nat.lt_of_succ_lt hn⟩ p := by
  apply Fin.ext; simp only [arow]; omega

/-- THE ACCUMULATORS IN CLOSED FORM: after point t, the sums over the blocks of columns met so far in t's row of points. -/
theorem acc_apply : ∀ (n : ℕ) (hn : n < cfg0.N) (p : Fin 1024),
    ((accAt m c n hn).1 (ix2 p (0 : Fin 1)) : EReal) = ∑ j ∈ Finset.range (n % 8 + 1), sAdd m c ⟨n, hn⟩ p j
    ∧ ((accAt m c n hn).2 (ix2 p (0 : Fin 1)) : EReal) = ∑ j ∈ Finset.range (n % 8 + 1), pAdd m c ⟨n, hn⟩ p j := by
  intro n
  induction n with
  | zero =>
    intro hn p
    have h := accAt_first m c ⟨0, hn⟩ (Nat.zero_mod _)
    dsimp only at h
    rw [h]
    dsimp only
    rw [sTerm_apply, pMat_apply, pay3_apply, pay4_apply, zero_add, zero_add]
    simp only [Nat.zero_mod, zero_add, Finset.sum_range_one]
    exact ⟨trivial, trivial⟩
  | succ n ih =>
    intro hn p
    by_cases h0 : (n + 1) % 8 = 0
    · have h := accAt_first m c ⟨n + 1, hn⟩ h0
      dsimp only at h
      rw [h]
      dsimp only
      rw [sTerm_apply, pMat_apply, pay3_apply, pay4_apply, zero_add, zero_add]
      simp only [h0, zero_add, Finset.sum_range_one]
      exact ⟨trivial, trivial⟩
    · have h := accAt_next m c ⟨n + 1, hn⟩ h0
      dsimp only at h
      rw [h]
      dsimp only
      rw [sTerm_apply, pMat_apply]
      simp only [Nat.add_sub_cancel]
      obtain ⟨ihS, ihP⟩ := ih (Nat.lt_of_succ_lt hn) p
      rw [ihS, ihP]
      have hm : (n + 1) % 8 = n % 8 + 1 := by omega
      rw [hm, Finset.sum_range_succ _ (n % 8 + 1), Finset.sum_range_succ _ (n % 8 + 1)]
      constructor <;> simp only [sAdd, pAdd, arow_pred n hn h0 p]

/-- The first result array is the sum over all other rows; -/
theorem S_final (r : Fin 8192) :
    (((dats m 0 c).arrAt 4 cfg0.N : S8192x1.Idx → EReal) (ix2 r (0 : Fin 1))) = Cert.Loss.sumS (xOf m c) r := by
  rw [arr4_apply (F := Ideal) m c r, (acc_apply m c _ _ (inBlk r)).1]
  have hr : arow (lastPt r) (inBlk r) = r := by
    apply Fin.ext; simp only [arow, lastPt, inBlk]; omega
  have h7 : (lastPt r).val % 8 + 1 = 8 := by simp only [lastPt]; omega
  simp only [sAdd, hr]
  rw [h7]
  exact sum_blocks (fun col => if r = col then (0 : EReal) else Cert.Loss.sim (xOf m c) r col)

/-- the second, over the other rows of its label. -/
theorem P_final (r : Fin 8192) :
    (((dats m 0 c).arrAt 5 cfg0.N : S8192x1.Idx → EReal) (ix2 r (0 : Fin 1))) = Cert.Loss.sumP (xOf m c) (labOf m c) r := by
  rw [arr5_apply (F := Ideal) m c r, (acc_apply m c _ _ (inBlk r)).2]
  have hr : arow (lastPt r) (inBlk r) = r := by
    apply Fin.ext; simp only [arow, lastPt, inBlk]; omega
  have h7 : (lastPt r).val % 8 + 1 = 8 := by simp only [lastPt]; omega
  simp only [pAdd, hr]
  rw [h7]
  exact sum_blocks (fun col => if labOf m c r = labOf m c col ∧ r ≠ col then Cert.Loss.sim (xOf m c) r col else (0 : EReal))

theorem kernel_value :
    tailFn (F := Ideal) ((dats m 0 c).arrAt 4 cfg0.N) ((dats m 0 c).arrAt 5 cfg0.N)
      = fun _ => Cert.Loss.loss (Cert.Loss.ratioK (Cert.Loss.featRow (m ((c.tc : Thread nD τ).loc main_arg0))) (Cert.Loss.labRow (m ((c.tc : Thread nD τ).loc main_arg1)))) := by
  rw [tail_apply]
  funext _
  congr 1
  funext r
  rw [S_final m c r, P_final m c r]
  rfl

end Cert.KernelIdeal.Hand

end
-- ==== Proof.Ref.Value.lean ====
/-
  The reference program's run, with its result read as the loss in the reference's own form.
-/
import proofs.«110631_j3728031613431_1_alg».proof.Proof.Gen.ReferenceIdeal.Read
import proofs.«110631_j3728031613431_1_alg».proof.Proof.Spec
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal
open Idealize.ShloMosaic Idealize.ShloMosaic.TcCoe Idealize.SL.Sem

open Idealize.ShloMosaic.ValueIdx

/-! ### The stacked rows -/

/-- Row r of the 8192 × 256 array the program builds first (swap the view and sample axes, then merge them row-major)
    is view r / 4096 of sample r % 4096 of the first argument. -/
theorem feat_apply (x0 : (⟨S4096x2x256, .f32⟩ : BufTy).Contents (Elt Ideal)) (r : Fin 8192) (k : Fin 256) :
    Read.val_main_v1 (F := Ideal) x0 (ix2 r k) = Cert.Loss.featRow x0 r k := by
  rw [Read.val_main_v1_apply, Read.val_main_v0_apply]
  unfold Cert.Loss.featRow
  refine congrArg x0 (funext fun a => Fin.ext ?_)
  have hr := r.isLt
  have hk := k.isLt
  match a with
  | ⟨0, _⟩ => show (r.val * 256 + k.val) / 256 % 4096 = r.val % 4096; omega
  | ⟨1, _⟩ => show (r.val * 256 + k.val) / 1048576 = r.val / 4096; omega
  | ⟨2, _⟩ => show (r.val * 256 + k.val) % 256 = k.val; omega

/-! ### Words -/

/-- The real number a comparison's bit converts to. -/
theorem uitofp_eq_bit {w : Nat} (a b : BitVec w) :
    FloatOps.uitofp (F := Ideal) .f32 (IntOp.cmpi .eq a b) = if a = b then (1 : EReal) else 0 := by
  show (((IntOp.cmpi .eq a b).toNat : ℝ) : EReal) = _
  unfold IntOp.cmpi
  by_cases h : a = b
  · simp [h]
  · simp [h]

/-- Two row numbers are equal as 32-bit words exactly when they are equal. -/
theorem word_eq_iff (r q : Fin 8192) : BitVec.ofNat 32 r.val + 0#32 = BitVec.ofNat 32 q.val ↔ r = q := by
  have hr := r.isLt
  have hq := q.isLt
  constructor
  · intro h
    have h2 := congrArg BitVec.toNat h
    simp only [BitVec.add_zero, BitVec.toNat_ofNat] at h2
    exact Fin.ext (by omega)
  · rintro rfl; simp

/-- The word of the real number one. -/
theorem one_word : Ideal.ofBits .f32 0x3F800000#32 = 1 := by
  simp [Ideal.ofBits, Ideal.ieee]
  rw [← EReal.coe_mul]
  norm_num

/-! ### The label mask, tiled over the two views -/

/-- Entry (r, q) of the 8192 × 8192 mask: one plus ε where the samples of rows r and q carry the same label, ε
    elsewhere. -/
theorem mask_apply (x1 : (⟨S4096, .i32⟩ : BufTy).Contents (Elt Ideal)) (r q : Fin 8192) :
    Read.val_main_v12 (F := Ideal) x1 (ix2 r q)
      = (if Cert.Loss.labRow x1 r = Cert.Loss.labRow x1 q then 1 else 0) + Cert.Loss.eps := by
  have hr := r.isLt
  have hq := q.isLt
  have el : Read.idx_main_v2 (Read.idx_main_v4 (Read.idx_main_v10 (Read.idx_main_v11 (Read.idx_main_v12 (ix2 r q)))))
      = ix1 (⟨r.val % 4096, Nat.mod_lt _ (by decide)⟩ : Fin 4096) :=
    funext fun a => Fin.ext (by
      match a with
      | ⟨0, _⟩ =>
        show ((((0 * 4096 + (r.val * 8192 + q.val) / 8192 % 4096) * 1 + 0) * 4096 + (r.val * 8192 + q.val) % 4096) / 4096) = r.val % 4096
        omega)
  have er : Read.idx_main_v3 (Read.idx_main_v5 (Read.idx_main_v10 (Read.idx_main_v11 (Read.idx_main_v12 (ix2 r q)))))
      = ix1 (⟨q.val % 4096, Nat.mod_lt _ (by decide)⟩ : Fin 4096) :=
    funext fun a => Fin.ext (by
      match a with
      | ⟨0, _⟩ =>
        show ((((0 * 4096 + (r.val * 8192 + q.val) / 8192 % 4096) * 1 + 0) * 4096 + (r.val * 8192 + q.val) % 4096) % 4096) = q.val % 4096
        omega)
  rw [Read.val_main_v12_apply, Read.val_main_v11_apply, Read.val_main_v10_apply, Read.val_main_v9_apply,
    Read.val_main_v7_apply, Read.val_main_v6_apply, Read.val_main_v4_apply, Read.val_main_v2_apply,
    Read.val_main_v5_apply, Read.val_main_v3_apply, Read.val_main_v8_apply, Read.val_main_cst_apply, el, er,
    uitofp_eq_bit]
  rfl

/-! ### The off-diagonal mask -/

/-- Entry (r, q) of the second mask: zero on the diagonal, one off it. -/
theorem offdiag_apply (r q : Fin 8192) :
    Read.val_main_v20 (F := Ideal) (ix2 r q) = 1 - (if r = q then (1 : EReal) else 0) := by
  rw [Read.val_main_v20_apply, Read.val_main_v19_apply, Read.val_main_cst_0_apply, Read.val_main_v18_apply,
    Read.val_main_v17_apply, Read.val_main_v16_apply, Read.val_main_v13_apply, Read.val_main_v15_apply,
    Read.val_main_c_apply, Read.val_main_v14_apply, uitofp_eq_bit]
  show Ideal.ofBits .f32 0x3F800000#32 - (if BitVec.ofNat 32 r.val + 0#32 = BitVec.ofNat 32 q.val then (1 : EReal) else 0) = _
  rw [one_word]
  simp only [word_eq_iff]

/-! ### The similarities -/

/-- Entry (r, q) of the similarity matrix: the exponential of the two rows' inner product over the temperature. -/
theorem sim_apply (x0 : (⟨S4096x2x256, .f32⟩ : BufTy).Contents (Elt Ideal)) (r q : Fin 8192) :
    Read.val_main_v29 (F := Ideal) x0 (ix2 r q) = Cert.Loss.sim (Cert.Loss.featRow x0) r q := by
  have e : ∀ k : Fin 256,
      Read.val_main_v1 (F := Ideal) x0 (Read.lidx_main_v26 (ix2 r q) k)
          * Read.val_main_v25 (F := Ideal) x0 (Read.ridx_main_v26 (ix2 r q) k)
        = Cert.Loss.featRow x0 r k * Cert.Loss.featRow x0 q k := by
    intro k
    have e1 : Read.lidx_main_v26 (ix2 r q) k = ix2 r k :=
      funext fun a => Fin.ext (by match a with | ⟨0, _⟩ => rfl | ⟨1, _⟩ => rfl)
    have e2 : Read.idx_main_v25 (Read.ridx_main_v26 (ix2 r q) k) = ix2 q k :=
      funext fun a => Fin.ext (by match a with | ⟨0, _⟩ => rfl | ⟨1, _⟩ => rfl)
    rw [Read.val_main_v25_apply, e1, e2, feat_apply, feat_apply]
  rw [Read.val_main_v29_apply, Read.val_main_v28_apply, Read.val_main_v26_apply, Read.val_main_v27_apply,
    Read.val_main_cst_2_apply]
  simp only [e]
  rfl

/-! ### The two weighted row sums and their ratio -/

/-- A column index of row r of a square array, by coordinates. -/
theorem row_idx (r q : Fin 8192) : Read.idx_main_v31 (ix1 r) q = ix2 r q :=
  funext fun a => Fin.ext (by match a with | ⟨0, _⟩ => rfl | ⟨1, _⟩ => rfl)

/-- Row r's sum of the similarities under the first weight. -/
theorem pos_apply (x0 : (⟨S4096x2x256, .f32⟩ : BufTy).Contents (Elt Ideal))
    (x1 : (⟨S4096, .i32⟩ : BufTy).Contents (Elt Ideal)) (r : Fin 8192) :
    Read.val_main_v31 (F := Ideal) x0 x1 (ix1 r)
      = Cert.Loss.pos (Cert.Loss.featRow x0) (Cert.Loss.labRow x1) r := by
  have e : ∀ q : Fin 8192, Read.val_main_v30 (F := Ideal) x0 x1 (Read.idx_main_v31 (ix1 r) q)
      = Cert.Loss.sim (Cert.Loss.featRow x0) r q * Cert.Loss.wpos (Cert.Loss.labRow x1) r q := by
    intro q
    rw [row_idx, Read.val_main_v30_apply, Read.val_main_v21_apply, sim_apply, mask_apply, offdiag_apply]
    rfl
  rw [Read.val_main_v31_apply, Read.val_main_cst_3_apply]
  simp only [e]
  show Ideal.ofBits .f32 0x00000000#32 + _ = _
  rw [Ideal.ofBits_zero_f32, zero_add]
  rfl

/-- Row r's sum of the similarities under the complementary weight. -/
theorem neg_apply (x0 : (⟨S4096x2x256, .f32⟩ : BufTy).Contents (Elt Ideal))
    (x1 : (⟨S4096, .i32⟩ : BufTy).Contents (Elt Ideal)) (r : Fin 8192) :
    Read.val_main_v33 (F := Ideal) x0 x1 (ix1 r)
      = Cert.Loss.neg (Cert.Loss.featRow x0) (Cert.Loss.labRow x1) r := by
  have e : ∀ q : Fin 8192, Read.val_main_v32 (F := Ideal) x0 x1 (Read.idx_main_v33 (ix1 r) q)
      = Cert.Loss.sim (Cert.Loss.featRow x0) r q * Cert.Loss.wneg (Cert.Loss.labRow x1) r q := by
    intro q
    rw [show Read.idx_main_v33 (ix1 r) q = ix2 r q from row_idx r q, Read.val_main_v32_apply,
      Read.val_main_v24_apply, Read.val_main_v23_apply, Read.val_main_v22_apply, Read.val_main_cst_1_apply,
      sim_apply, mask_apply, offdiag_apply]
    show _ * ((Ideal.ofBits .f32 0x3F800000#32 - _) * _) = _
    rw [one_word]
    rfl
  rw [Read.val_main_v33_apply, Read.val_main_cst_4_apply]
  simp only [e]
  show Ideal.ofBits .f32 0x00000000#32 + _ = _
  rw [Ideal.ofBits_zero_f32, zero_add]
  rfl

/-- Row r's ratio: the first sum over the sum of both. -/
theorem ratio_apply (x0 : (⟨S4096x2x256, .f32⟩ : BufTy).Contents (Elt Ideal))
    (x1 : (⟨S4096, .i32⟩ : BufTy).Contents (Elt Ideal)) (r : Fin 8192) :
    Read.val_main_v35 (F := Ideal) x0 x1 (ix1 r)
      = Cert.Loss.ratioR (Cert.Loss.featRow x0) (Cert.Loss.labRow x1) r := by
  rw [Read.val_main_v35_apply, Read.val_main_v34_apply, pos_apply, neg_apply]
  rfl

/-! ### The scalar tail -/

/-- The program's result: minus the mean over the rows of the logarithm of the ratio. -/
theorem loss_apply (x0 : (⟨S4096x2x256, .f32⟩ : BufTy).Contents (Elt Ideal))
    (x1 : (⟨S4096, .i32⟩ : BufTy).Contents (Elt Ideal)) (i : S_.Idx) :
    Read.val_main_v39 (F := Ideal) x0 x1 i
      = Cert.Loss.loss (Cert.Loss.ratioR (Cert.Loss.featRow x0) (Cert.Loss.labRow x1)) := by
  have e : ∀ r : Fin 8192, Read.val_main_v36 (F := Ideal) x0 x1 (ix1 r)
      = Ideal.log (Cert.Loss.ratioR (Cert.Loss.featRow x0) (Cert.Loss.labRow x1) r) := by
    intro r
    rw [Read.val_main_v36_apply, ratio_apply]
    rfl
  rw [Read.val_main_v39_apply, Read.val_main_v38_apply, Read.val_main_v37_apply, Read.val_main_cst_5_apply,
    Read.val_main_cst_6_apply, ← Equiv.sum_comp (idxEquiv1 (n := 8192)).symm]
  show -(Ideal.div (Ideal.ofBits .f32 0x00000000#32
      + ∑ r : Fin 8192, Read.val_main_v36 (F := Ideal) x0 x1 (ix1 r)) (Ideal.ofBits .f32 0x46000000#32)) = _
  simp only [e]
  rw [Ideal.ofBits_zero_f32, zero_add]
  rfl

/-- The run's composed term is that constant function. -/
theorem res_eq (m' : (ℓ : Loc nD τ sig) → Buf (Elt Ideal) ℓ) (c : Dev nD) :
    Cert.ReferenceIdeal.Value.res_main_v39 (F := Ideal) m' c
      = fun _ => Cert.Loss.loss (Cert.Loss.ratioR (Cert.Loss.featRow (m' ((c.tc : Thread nD τ).loc main_arg0)))
          (Cert.Loss.labRow (m' ((c.tc : Thread nD τ).loc main_arg1)))) := by
  rw [Read.val_main_v39_eq]
  funext i
  exact loss_apply _ _ i

/-- Every weakly fair execution of the reference ends; its result is the loss in the reference's form, of the rows
    and labels read off the two arguments; the arguments are unchanged. -/
theorem run_loss (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v39)
          = (fun _ => Cert.Loss.loss (Cert.Loss.ratioR (Cert.Loss.featRow (m' ((c.tc : Thread nD τ).loc main_arg0))) (Cert.Loss.labRow (m' ((c.tc : Thread nD τ).loc main_arg1)))))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c => ⟨(h c).1.trans (res_eq m' c), (h c).2⟩)
    (Cert.ReferenceIdeal.Value.run (F := Ideal) m' ρ')

end Cert.ReferenceIdeal.RefValue

end
-- ==== Proof.Alg.lean ====
/-
  The two forms of a row's ratio are one extended real when every feature is a real number.
-/
import proofs.«110631_j3728031613431_1_alg».proof.Proof.Spec

noncomputable section

namespace Cert.Loss

open Idealize.ShloMosaic

/-! ### The two constants are real numbers -/

/-- The temperature's word has sign 0, exponent field 123 and fraction field 1006633: it denotes the positive real
    (2^23 + 1006633) · 2^(123 − 127 − 23) = 9395241 · 2^(−27), which is not zero. -/
theorem temp_real : ∃ t : ℝ, t ≠ 0 ∧ temp = (t : EReal) :=
  ⟨9395241 * (2 : ℝ) ^ (-27 : ℤ), by positivity, by simp [temp, Ideal.ofBits, Ideal.ieee, -EReal.coe_mul]⟩

/-- ε's word has sign 0, exponent field 103 and fraction field 5685141: it denotes the real
    (2^23 + 5685141) · 2^(103 − 127 − 23) = 14073749 · 2^(−47). Only its being a real is used. -/
theorem eps_real : ∃ e : ℝ, eps = (e : EReal) :=
  ⟨14073749 * (2 : ℝ) ^ (-47 : ℤ), by simp [eps, Ideal.ofBits, Ideal.ieee, -EReal.coe_mul]⟩

/-! ### Finite sums of reals inside the extended reals -/

/-- A finite sum of reals, each read as an extended real, is the real sum read as an extended real. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ### The identity over the reals, and its transport

  Over any finite index set, with real similarities s q, a real ε, a = [lab r = lab q] and d = [r = q]:
  the weight (a + ε)(1 − d) splits a pair's similarity into its "same label, off the diagonal" part plus ε times
  its "off the diagonal" part, and the two weights (a + ε)(1 − d) and (1 − (a + ε))(1 − d) add up to 1 − d. -/

section core
variable {ι : Type*} [Fintype ι] [DecidableEq ι] {L : Type*} [DecidableEq L]
  (lab : ι → L) (s : ι → ℝ) (e : ℝ) (r : ι)

/-- P + ε · S = pos, term by term: on the diagonal both sides vanish; off it, s q · (a + ε) = a · s q + ε · s q. -/
theorem real_pos :
    (∑ q, if lab r = lab q ∧ r ≠ q then s q else 0) + e * (∑ q, if r = q then 0 else s q)
      = ∑ q, s q * (((if lab r = lab q then 1 else 0) + e) * (1 - (if r = q then 1 else 0))) := by
  rw [Finset.mul_sum, ← Finset.sum_add_distrib]
  refine Finset.sum_congr rfl fun q _ => ?_
  by_cases h : r = q <;> by_cases h' : lab r = lab q <;> simp [h, h'] <;> ring

/-- S = pos + neg, term by term: (a + ε) + (1 − (a + ε)) = 1, so the two weighted terms add up to s q · (1 − d). -/
theorem real_all :
    (∑ q, if r = q then 0 else s q)
      = (∑ q, s q * (((if lab r = lab q then 1 else 0) + e) * (1 - (if r = q then 1 else 0))))
        + ∑ q, s q * ((1 - ((if lab r = lab q then 1 else 0) + e)) * (1 - (if r = q then 1 else 0))) := by
  rw [← Finset.sum_add_distrib]
  refine Finset.sum_congr rfl fun q _ => ?_
  by_cases h : r = q <;> simp [h] <;> ring

/-- The same two identities inside the extended reals: each of the four sums is the coercion of its real
    counterpart (the 0/1 indicators are coercions of the real indicators, and sums, products and differences of
    reals commute with the coercion), so numerator meets numerator and denominator meets denominator. -/
theorem core_eq :
    Ideal.div ((∑ q, if lab r = lab q ∧ r ≠ q then (s q : EReal) else 0)
        + (e : EReal) * (∑ q, if r = q then 0 else (s q : EReal))) (∑ q, if r = q then 0 else (s q : EReal))
      = Ideal.div (∑ q, (s q : EReal) * (((if lab r = lab q then 1 else 0) + (e : EReal)) * (1 - (if r = q then 1 else 0))))
          ((∑ q, (s q : EReal) * (((if lab r = lab q then 1 else 0) + (e : EReal)) * (1 - (if r = q then 1 else 0))))
            + ∑ q, (s q : EReal) * ((1 - ((if lab r = lab q then 1 else 0) + (e : EReal))) * (1 - (if r = q then 1 else 0)))) := by
  have hS : (∑ q, if r = q then 0 else (s q : EReal)) = ((∑ q, if r = q then 0 else s q : ℝ) : EReal) := by
    rw [← coe_sum]; refine Finset.sum_congr rfl fun q _ => ?_; split_ifs <;> simp
  have hP : (∑ q, if lab r = lab q ∧ r ≠ q then (s q : EReal) else 0)
      = ((∑ q, if lab r = lab q ∧ r ≠ q then s q else 0 : ℝ) : EReal) := by
    rw [← coe_sum]; refine Finset.sum_congr rfl fun q _ => ?_; split_ifs <;> simp
  have hA : ∀ q, (if lab r = lab q then (1 : EReal) else 0) = ((if lab r = lab q then (1 : ℝ) else 0 : ℝ) : EReal) := by
    intro q; split_ifs <;> simp
  have hD : ∀ q, (if r = q then (1 : EReal) else 0) = ((if r = q then (1 : ℝ) else 0 : ℝ) : EReal) := by
    intro q; split_ifs <;> simp
  have hpos : (∑ q, (s q : EReal) * (((if lab r = lab q then 1 else 0) + (e : EReal)) * (1 - (if r = q then 1 else 0))))
      = ((∑ q, s q * (((if lab r = lab q then 1 else 0) + e) * (1 - (if r = q then 1 else 0))) : ℝ) : EReal) := by
    rw [← coe_sum]; refine Finset.sum_congr rfl fun q _ => ?_
    rw [hA, hD, ← EReal.coe_one, ← EReal.coe_add, ← EReal.coe_sub, ← EReal.coe_mul, ← EReal.coe_mul]
  have hneg : (∑ q, (s q : EReal) * ((1 - ((if lab r = lab q then 1 else 0) + (e : EReal))) * (1 - (if r = q then 1 else 0))))
      = ((∑ q, s q * ((1 - ((if lab r = lab q then 1 else 0) + e)) * (1 - (if r = q then 1 else 0))) : ℝ) : EReal) := by
    rw [← coe_sum]; refine Finset.sum_congr rfl fun q _ => ?_
    rw [hA, hD, ← EReal.coe_one, ← EReal.coe_add, ← EReal.coe_sub, ← EReal.coe_sub, ← EReal.coe_mul, ← EReal.coe_mul]
  rw [hS, hP, hpos, hneg, ← EReal.coe_mul, ← EReal.coe_add, ← EReal.coe_add, real_pos, ← real_all lab s e r]

end core

/-! ### The ratio -/

/-- With real features every similarity is a positive real, the weights of the two reference sums add up to the
    plain "off the diagonal" weight, and ε distributes over the kernel's sum: pos = P + ε · S and pos + neg = S. -/
theorem ratio_eq (x : Fin 8192 → Fin 256 → EReal) (lab : Fin 8192 → BitVec 32)
    (hx : ∀ r k, ∃ y : ℝ, x r k = (y : EReal)) (r : Fin 8192) : ratioK x lab r = ratioR x lab r := by
  choose xr hxr using hx
  obtain ⟨t, ht0, ht⟩ := temp_real
  obtain ⟨e, he⟩ := eps_real
  -- the inner product of two real rows is real, its quotient by T is real, and so is the exponential of that
  have hs : ∀ q, sim x r q = ((Real.exp ((∑ k, xr r k * xr q k) * (1 / t)) : ℝ) : EReal) := by
    intro q
    have hd : dotp x r q = ((∑ k, xr r k * xr q k : ℝ) : EReal) := by
      unfold dotp; rw [← coe_sum]; refine Finset.sum_congr rfl fun k _ => ?_; rw [hxr, hxr, EReal.coe_mul]
    rw [sim, hd, ht, Ideal.div_coe ht0, ← EReal.coe_mul, Ideal.exp_coe]
  unfold ratioK ratioR sumP sumS pos neg wpos wneg
  simp only [hs, he]
  exact core_eq lab _ e r

/-- So the losses agree. -/
theorem loss_eq (x : Fin 8192 → Fin 256 → EReal) (lab : Fin 8192 → BitVec 32)
    (hx : ∀ r k, ∃ y : ℝ, x r k = (y : EReal)) : loss (ratioK x lab) = loss (ratioR x lab) := by
  unfold loss; simp only [ratio_eq x lab hx]

end Cert.Loss

end
-- ==== Proof.Fin.lean ====
/-
  The precondition read back: every feature is a real number.
-/
import proofs.«110631_j3728031613431_1_alg».proof.Proof.Gen.Pre_finite_inputs
import proofs.«110631_j3728031613431_1_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Proof.Finite

open Idealize.ShloMosaic Idealize.ShloMosaic.ValueIdx
open Cert.Pre_finite_inputs

instance : Subsingleton S_.Idx := ⟨fun a b => funext fun d => d.elim0⟩

/-- The f32 word of +∞ is the top of the extended reals. -/
theorem ofBits_inf : Ideal.ofBits .f32 0x7F800000#32 = (⊤ : EReal) := by
  simp [Ideal.ofBits, Ideal.ieee]

/-- The precondition says |x| < +∞ at every entry: every entry is a real. -/
theorem real_of_pre [Facts] (a0 : FVec Ideal S4096x2x256 .f32) (a1 : IVec S4096 32)
    (h : fn (F := Ideal) a0 a1 = fun _ => 1#1) (i : S4096x2x256.Idx) : ∃ y : ℝ, a0 i = (y : EReal) := by
  have e := congrFun h ix0
  dsimp only [fn] at e
  have hi := Host.reduce_andi_all _ _ _ _ _ e i
  rw [cmpf_apply] at hi
  have hb : broadcastInDim S4096x2x256 ![] Facts.bcast_S_S4096x2x256 (constant (F := Ideal) S_ .f32 0x7F800000#32) i = (⊤ : EReal) := by
    rw [broadcastInDim_apply ![] _ _ i ix0 (fun a => a.elim0), constant_apply, ofBits_inf]
  rw [hb] at hi
  have hlt : max (a0 i) (-(a0 i)) < (⊤ : EReal) := by
    have h' : Ideal.cmp .olt (max (a0 i) (-(a0 i))) ⊤ = 1#1 := hi
    simp only [Ideal.cmp] at h'
    cases hdec : decide (max (a0 i) (-(a0 i)) < (⊤ : EReal)) with
    | true => exact of_decide_eq_true hdec
    | false => rw [hdec] at h'; exact absurd h' (by decide)
  obtain ⟨h1, h2⟩ := max_lt_iff.mp hlt
  have hne_top : a0 i ≠ ⊤ := ne_of_lt h1
  have hne_bot : a0 i ≠ ⊥ := by
    intro hb'
    rw [hb'] at h2
    simp at h2
  exact ⟨(a0 i).toReal, (EReal.coe_toReal hne_top hne_bot).symm⟩

end Cert.Proof.Finite

end
-- ==== Proof.lean ====
/-
  The certificate: a pipelined supervised-contrastive-loss kernel against its plain reference.

  Both programs stack the two views of 4096 samples into 8192 rows of 256 features and compute minus the mean
  over the rows of the logarithm of a ratio: the weight of the other rows of a row's own label against the weight
  of all other rows, the weights being exp (⟨x r, x q⟩ / T) and every same-label weight raised by ε times the total.
  The reference builds the 8192 × 8192 similarity matrix and two masks and sums twice; the kernel walks the matrix in
  1024 × 1024 blocks, keeps two running row sums, and writes them out once per block row.

  The frames: each kernel program is its host lines, one pipelined region and its host lines again; the region's body
  obligation is proved per case of its two branches, and the launch goes through the library's theorem for a program
  given as a list of segments, the feature matrix — which two input windows read — held half and half inside the
  region. The reference is a straight line of host operations. The value: the kernel's two result columns are the two
  sums over all other rows (eight blocks of columns are all columns); with real features (the precondition) the
  reference's two masked sums are P + ε · S and, added, S; so the ratios, and the losses, agree.
-/
import proofs.«110631_j3728031613431_1_alg».proof.Defs
import proofs.«110631_j3728031613431_1_alg».proof.Proof.Gen.Kernel
import proofs.«110631_j3728031613431_1_alg».proof.Proof.Gen.KernelIdeal
import proofs.«110631_j3728031613431_1_alg».proof.Proof.Gen.ReferenceIdeal
import proofs.«110631_j3728031613431_1_alg».proof.Proof.Gen.Pre_finite_inputs
import proofs.«110631_j3728031613431_1_alg».proof.Proof.K.Launch
import proofs.«110631_j3728031613431_1_alg».proof.Proof.KI.Launch
import proofs.«110631_j3728031613431_1_alg».proof.Proof.KI.Value
import proofs.«110631_j3728031613431_1_alg».proof.Proof.Ref.Value
import proofs.«110631_j3728031613431_1_alg».proof.Proof.Alg
import proofs.«110631_j3728031613431_1_alg».proof.Proof.Fin

noncomputable section

namespace Cert.Proof

open Idealize.ShloMosaic Idealize.ShloMosaic.TcCoe Idealize.SL.Sem

/-- The word-level kernel program runs and leaves its arguments as they were. -/
theorem frame_k : Cert.frame_Kernel := fun m ρ _ =>
  (θ_run (Cert.Kernel.defs (F := Bits)) _ _).mono (fun _ h c => (h c).2) (Cert.Kernel.Hand.run_main (F := Bits) m ρ)

/-- So does the idealized kernel program. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the reference. -/
theorem frame_ri : Cert.frame_ReferenceIdeal := fun m ρ _ =>
  (θ_run (Cert.ReferenceIdeal.defs (F := Ideal)) _ _).mono (fun _ h c => (h c).2) (Cert.ReferenceIdeal.RefValue.run_loss m ρ)

/-- Under the precondition every feature the kernel program is given is a real. -/
theorem feat_real (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 8192) (k : Fin 256) :
    ∃ y : ℝ, Cert.Loss.featRow (m ((c.tc : Thread Cert.KernelIdeal.nD Cert.KernelIdeal.τ).loc Cert.KernelIdeal.main_arg0)) r k = (y : EReal) :=
  Cert.Proof.Finite.real_of_pre _ _ (hpre c) _

/-- From memories agreeing on the arguments both idealized programs end with the same loss: the kernel's in its own
    form, the reference's in its own, and the two forms are one extended real when the features are real. -/
theorem algebraic : Cert.algebraic_KernelIdeal_ReferenceIdeal := by
  intro m ρ m' ρ' hpre hagree
  refine ⟨fun c => fun _ => Cert.Loss.loss (Cert.Loss.ratioK
      (Cert.Loss.featRow (m ((c.tc : Thread Cert.KernelIdeal.nD Cert.KernelIdeal.τ).loc Cert.KernelIdeal.main_arg0)))
      (Cert.Loss.labRow (m ((c.tc : Thread Cert.KernelIdeal.nD Cert.KernelIdeal.τ).loc Cert.KernelIdeal.main_arg1)))), ?_, ?_⟩
  · exact (θ_run (Cert.KernelIdeal.defs (F := Ideal)) _ _).mono
      (fun _ h c => ⟨(h c).1.trans (Cert.KernelIdeal.Hand.kernel_value m c), (h c).2⟩)
      (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.RefValue.run_loss m' ρ')
    rw [(hagree c).1, (hagree c).2]
    funext _
    exact (Cert.Loss.loss_eq _ _ (feat_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
